-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)) (v3 : (c : Dev Cert.KernelIdeal.nD) → Buf (Elt Ideal) ((c.tc : Thread Cert.KernelIdeal.nD Cert.KernelIdeal.τ).loc Cert.KernelIdeal.main_v14_3)) (v4 : (c : Dev Cert.KernelIdeal.nD) → Buf (Elt Ideal) ((c.tc : Thread Cert.KernelIdeal.nD Cert.KernelIdeal.τ).loc Cert.KernelIdeal.main_v14_4)) (v5 : (c : Dev Cert.KernelIdeal.nD) → Buf (Elt Ideal) ((c.tc : Thread Cert.KernelIdeal.nD Cert.KernelIdeal.τ).loc Cert.KernelIdeal.main_v14_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_v14_3) = v3 c
          ∧ r.2.mem ((c.tc : Thread Cert.KernelIdeal.nD Cert.KernelIdeal.τ).loc Cert.KernelIdeal.main_v14_4) = v4 c
          ∧ r.2.mem ((c.tc : Thread Cert.KernelIdeal.nD Cert.KernelIdeal.τ).loc Cert.KernelIdeal.main_v14_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_v26) = v3 c
          ∧ r.2.mem ((c.tc : Thread Cert.ReferenceIdeal.nD Cert.ReferenceIdeal.τ).loc Cert.ReferenceIdeal.main_v27) = v4 c
          ∧ r.2.mem ((c.tc : Thread Cert.ReferenceIdeal.nD Cert.ReferenceIdeal.τ).loc Cert.ReferenceIdeal.main_v33) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S1024x1024 .f32) (main_v63 : IVec S_ 1) (main_v67 : IVec S_ 1) : IVec S_ 1 :=
  let main_v68 : IVec S_ 1 := andi main_v63 main_v67
  let main_v69 : FVec F S1024x1024 .f32 := Host.absf main_arg14
  let main_cst_26 : FVec F S_ .f32 := constant S_ .f32 0x7F800000#32
  let main_v70 : FVec F S1024x1024 .f32 := broadcastInDim S1024x1024 ![] bcast_S_S1024x1024 main_cst_26
  let main_v71 : IVec S1024x1024 1 := cmpf .olt main_v69 main_v70
  let main_c_27 : IVec S_ 1 := constantI S_ 1 1#1
  let main_v72 : IVec S_ 1 := (fun x v => Host.reduce IntOp.andi x v reducesTo_S1024x1024_S_d0_1 h_S_) main_v71 main_c_27
  let main_v73 : IVec S_ 1 := andi main_v68 main_v72
  main_v73

def fn_part3 {F : FTy → Type} [FloatOps F] (main_arg11 : FVec F S1024x1024 .f32) (main_arg12 : FVec F S1024x1024 .f32) (main_arg13 : FVec F S1024x1024 .f32) (main_arg14 : FVec F S1024x1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_v63 main_v67

def fn_part2 {F : FTy → Type} [FloatOps F] (main_arg7 : FVec F S1024x1024 .f32) (main_arg8 : FVec F S1024 .f32) (main_arg9 : FVec F S1024x1024 .f32) (main_arg10 : FVec F S1024 .f32) (main_arg11 : FVec F S1024x1024 .f32) (main_arg12 : FVec F S1024x1024 .f32) (main_arg13 : FVec F S1024x1024 .f32) (main_arg14 : FVec F S1024x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024x1024 .f32) (main_arg13 : FVec F S1024x1024 .f32) (main_arg14 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4096x1024 .f32) (main_arg1 : FVec F S4096x1024 .f32) (main_arg2 : FVec F S4096x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024x1024 .f32) (main_arg13 : FVec F S1024x1024 .f32) (main_arg14 : FVec F S1024x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩

abbrev nBuf : Space → Nat
  | .hbm => 35
  | .vmem => 30
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S4096x1024, .bf16⟩
  | .hbm, ⟨16, _⟩ => ⟨S4096x1024, .bf16⟩
  | .hbm, ⟨17, _⟩ => ⟨S1024x1024, .bf16⟩
  | .hbm, ⟨18, _⟩ => ⟨S1024x1024, .bf16⟩
  | .hbm, ⟨19, _⟩ => ⟨S1024x1024, .bf16⟩
  | .hbm, ⟨20, _⟩ => ⟨S1024x1024, .bf16⟩
  | .hbm, ⟨21, _⟩ => ⟨S1024x1024, .bf16⟩
  | .hbm, ⟨22, _⟩ => ⟨S1024x1024, .bf16⟩
  | .hbm, ⟨23, _⟩ => ⟨S1024x1024, .bf16⟩
  | .hbm, ⟨24, _⟩ => ⟨S1024x1024, .bf16⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14_0 : Ref sig .tc := ⟨.hbm, 29, rfl⟩
abbrev main_v14_1 : Ref sig .tc := ⟨.hbm, 30, rfl⟩
abbrev main_v14_2 : Ref sig .tc := ⟨.hbm, 31, rfl⟩
abbrev main_v14_3 : Ref sig .tc := ⟨.hbm, 32, rfl⟩
abbrev main_v14_4 : Ref sig .tc := ⟨.hbm, 33, rfl⟩
abbrev main_v14_5 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

class Facts₀ : Prop where
  bitsLt_bf16_f32 : FTy.bits .bf16 < FTy.bits .f32
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .bf16 = 32 ∨ (Rect.block (s := S4096x1024) S256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .bf16 = 32 ∨ (Rect.block (s := S4096x1024) S256x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .bf16 = 32 ∨ (Rect.block (s := S1024x1024) S1024x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S1024x1024.size a
  hwx0_10 : ∀ i : grid0.Coords, EltTy.bits .bf16 = 32 ∨ (Rect.block (s := S1024x1024) S1024x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1024.size a ≤ S1x1024.size a
  hwx0_12 : ∀ i : grid0.Coords, EltTy.bits .f32 = 32 ∨ (Rect.block (s := S1x1024) S1x1024.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1024.size a ≤ S1x1024.size a
  hwx0_13 : ∀ i : grid0.Coords, EltTy.bits .f32 = 32 ∨ (Rect.block (s := S1x1024) S1x1024.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1024.size a ≤ S1x1024.size a
  hwx0_14 : ∀ i : grid0.Coords, EltTy.bits .f32 = 32 ∨ (Rect.block (s := S1x1024) S1x1024.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S256x1024.size a ≤ S4096x1024.size a
  hwx0_15 : ∀ i : grid0.Coords, EltTy.bits .f32 = 32 ∨ (Rect.block (s := S4096x1024) S256x1024.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S256x1024.size a ≤ S4096x1024.size a
  hwx0_16 : ∀ i : grid0.Coords, EltTy.bits .f32 = 32 ∨ (Rect.block (s := S4096x1024) S256x1024.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S256x1024.size a ≤ S4096x1024.size a
  hwx0_17 : ∀ i : grid0.Coords, EltTy.bits .f32 = 32 ∨ (Rect.block (s := S4096x1024) S256x1024.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S256x1024.size a ≤ S4096x1024.size a
  hwx0_18 : ∀ i : grid0.Coords, EltTy.bits .f32 = 32 ∨ (Rect.block (s := S4096x1024) S256x1024.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S256x1024.size a ≤ S4096x1024.size a
  hwx0_19 : ∀ i : grid0.Coords, EltTy.bits .f32 = 32 ∨ (Rect.block (s := S4096x1024) S256x1024.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S256x1024.size a ≤ S4096x1024.size a
  hwx0_20 : ∀ i : grid0.Coords, EltTy.bits .f32 = 32 ∨ (Rect.block (s := S4096x1024) S256x1024.size (cc0_transform_20 i) (hinb0_20 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9) S1024x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v10) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v11) S1x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v12) S1x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v13) S1x1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v14_0) S256x1024.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v14_1) S256x1024.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v14_2) S256x1024.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v14_3) S256x1024.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v14_4) S256x1024.size cc0_transform_19 reads0_19 true false 2 stage0_19 sem0_19
    hrank0 hreads0_19 hinb0_19 nbuf0_19 (Memref.isWhole_whole _) hwx0_19 hstage0_19

abbrev win0_20 : Pipeline.Window sig grid0 :=
  Pipeline.Window.ofSpec (Memref.whole main_v14_5) S256x1024.size cc0_transform_20 reads0_20 true false 2 stage0_20 sem0_20
    hrank0 hreads0_20 hinb0_20 nbuf0_20 (Memref.isWhole_whole _) hwx0_20 hstage0_20

abbrev win0 : Fin 21 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | ⟨_ + 21, h⟩ => absurd h (Nat.not_lt.2 (Nat.le_add_left _ _))
abbrev spec0 : Fin 21 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S4096 : Shape := ⟨1, ![4096]⟩
abbrev S1024x4096 : Shape := ⟨2, ![1024, 4096]⟩
abbrev S4096x4096 : Shape := ⟨2, ![4096, 4096]⟩
abbrev S1x4096 : Shape := ⟨2, ![1, 4096]⟩
abbrev S_ : Shape := ⟨0, ![]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S4096x1024, .f32⟩
  | .hbm, ⟨16, _⟩ => ⟨S4096x1024, .f32⟩
  | .hbm, ⟨17, _⟩ => ⟨S4096, .f32⟩
  | .hbm, ⟨18, _⟩ => ⟨S1024x4096, .f32⟩
  | .hbm, ⟨19, _⟩ => ⟨S4096x4096, .f32⟩
  | .hbm, ⟨20, _⟩ => ⟨S1024x4096, .f32⟩
  | .hbm, ⟨21, _⟩ => ⟨S4096x4096, .f32⟩
  | .hbm, ⟨22, _⟩ => ⟨S4096x4096, .f32⟩
  | .hbm, ⟨23, _⟩ => ⟨S1x4096, .f32⟩
  | .hbm, ⟨24, _⟩ => ⟨S4096x4096, .f32⟩
  | .hbm, ⟨25, _⟩ => ⟨S4096x4096, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_v18 : Ref sig .tc := ⟨.hbm, 34, rfl⟩
abbrev main_cst_0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_1 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_3 : Ref sig .tc := ⟨.hbm, 49, rfl⟩
abbrev main_v30 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]

class Facts₀ : Prop where
  concatenates_S1024x1024_S1024x1024_S1024x1024_S1024x1024_S4096x1024_d0 : Shape.Concatenates [S1024x1024, S1024x1024, S1024x1024, S1024x1024] S4096x1024 0
  concatenates_S1024_S1024_S1024_S1024_S4096_d0 : Shape.Concatenates [S1024, S1024, S1024, S1024] S4096 0
  transposes_S4096x1024_S1024x4096_1_0 : S4096x1024.Transposes [1, 0] S1024x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1024 : S_.BroadcastsInDim S4096x1024 (![] : Fin 0 → Fin S4096x1024.rank)
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.CellSpec.lean ====
/-
  The LSTM cell as plain functions on the extended reals, one batch row at a time.

  A gate's pre-activation at hidden unit `q` is the row `xr` against row `q` of the input weights, plus the row `hr`
  against row `q` of the hidden weights, plus the bias at `q` — the weights stored (out, in), so both products contract
  the LAST axis of each factor, and the two products are added BEFORE the bias. The gates are
  `i = σ(z_i)`, `f = σ(z_f)`, `g = tanh(z_g)`, `o = σ(z_o)` with `σ z = 1 / (1 + e^(-z))`, the new cell state is
  `c' = f · c + i · g` and the new hidden state `h' = o · tanh c'`. Each value at `(r, q)` depends on the batch only through
  row `r`, which is why a block of rows of the result is the same function of the same rows of the inputs.
-/
import Idealize.ShloMosaic.PureOps.Ideal
import Idealize.ShloMosaic.Lib.ValueIdx

noncomputable section

namespace Cert.Cell

open Idealize.ShloMosaic
open scoped BigOperators

/-- The hidden width and the input width: both 1024. -/
abbrev Row : Type := Fin 1024 → EReal
/-- A weight matrix stored (out, in). -/
abbrev Mat : Type := Fin 1024 → Fin 1024 → EReal

/-- The eight weight matrices and four biases of the cell. -/
structure Weights where
  WxI : Mat
  WxF : Mat
  WxG : Mat
  WxO : Mat
  WhI : Mat
  WhF : Mat
  WhG : Mat
  WhO : Mat
  bI : Row
  bF : Row
  bG : Row
  bO : Row

/-- One gate's pre-activation at hidden unit `q`: `(xr · Wx[q,:] + hr · Wh[q,:]) + b[q]`. -/
def pre (Wx Wh : Mat) (b : Row) (xr hr : Row) (q : Fin 1024) : EReal :=
  ((∑ k : Fin 1024, xr k * Wx q k) + (∑ k : Fin 1024, hr k * Wh q k)) + b q

def gateI (W : Weights) (xr hr : Row) (q : Fin 1024) : EReal := Ideal.logistic (pre W.WxI W.WhI W.bI xr hr q)
def gateF (W : Weights) (xr hr : Row) (q : Fin 1024) : EReal := Ideal.logistic (pre W.WxF W.WhF W.bF xr hr q)
def gateG (W : Weights) (xr hr : Row) (q : Fin 1024) : EReal := Ideal.tanh (pre W.WxG W.WhG W.bG xr hr q)
def gateO (W : Weights) (xr hr : Row) (q : Fin 1024) : EReal := Ideal.logistic (pre W.WxO W.WhO W.bO xr hr q)

/-- The new cell state at `q`, from the old cell state's entry `cq` there: `f · c + i · g`. -/
def newC (W : Weights) (xr hr : Row) (cq : EReal) (q : Fin 1024) : EReal :=
  gateF W xr hr q * cq + gateI W xr hr q * gateG W xr hr q

/-- The new hidden state at `q`: `o · tanh c'`. -/
def newH (W : Weights) (xr hr : Row) (cq : EReal) (q : Fin 1024) : EReal :=
  gateO W xr hr q * Ideal.tanh (newC W xr hr cq q)

/-! ## The cell over whole arrays

The batch array [4096, 1024], a weight matrix [1024, 1024] (out, in) and a bias [1024], read as rows, matrices and
vectors; the six results as arrays [4096, 1024], each entry `(r, q)` the cell's value on row `r`. -/

open Idealize.ShloMosaic.ValueIdx

abbrev SBat : Shape := ⟨2, ![4096, 1024]⟩
abbrev SMat : Shape := ⟨2, ![1024, 1024]⟩
abbrev SVec : Shape := ⟨1, ![1024]⟩

/-- Row `r` of a batch array. -/
def rowOf (x : SBat.Idx → EReal) (r : Fin 4096) : Row := fun k => x (ix2 r k)
def matOf (w : SMat.Idx → EReal) : Mat := fun q k => w (ix2 q k)
def vecOf (b : SVec.Idx → EReal) : Row := fun q => b (ix1 q)

/-- The cell's weights from the eight matrices and four biases, gate order i, f, g, o: input weights, hidden weights,
    biases. -/
def weightsOf (wxi wxf wxg wxo whi whf whg who : SMat.Idx → EReal) (bi bf bg bo : SVec.Idx → EReal) : Weights :=
  ⟨matOf wxi, matOf wxf, matOf wxg, matOf wxo, matOf whi, matOf whf, matOf whg, matOf who, vecOf bi, vecOf bf, vecOf bg, vecOf bo⟩

def outI (x h : SBat.Idx → EReal) (W : Weights) : SBat.Idx → EReal := fun j => gateI W (rowOf x (j 0)) (rowOf h (j 0)) (j 1)
def outF (x h : SBat.Idx → EReal) (W : Weights) : SBat.Idx → EReal := fun j => gateF W (rowOf x (j 0)) (rowOf h (j 0)) (j 1)
def outG (x h : SBat.Idx → EReal) (W : Weights) : SBat.Idx → EReal := fun j => gateG W (rowOf x (j 0)) (rowOf h (j 0)) (j 1)
def outO (x h : SBat.Idx → EReal) (W : Weights) : SBat.Idx → EReal := fun j => gateO W (rowOf x (j 0)) (rowOf h (j 0)) (j 1)
def outC (x h c : SBat.Idx → EReal) (W : Weights) : SBat.Idx → EReal := fun j => newC W (rowOf x (j 0)) (rowOf h (j 0)) (c j) (j 1)
def outH (x h c : SBat.Idx → EReal) (W : Weights) : SBat.Idx → EReal := fun j => newH W (rowOf x (j 0)) (rowOf h (j 0)) (c j) (j 1)

end Cert.Cell

end
-- ==== Proof.BlockCell.lean ====
/-
  One grid point of the kernel: a block of 256 batch rows against the whole weights.

  The body multiplies the block of `x` rows [256, 1024] by a weight matrix stored (out, in) [1024, 1024], contracting
  axis 1 of both — entry `(p, q)` is the sum over `k` of `X (p, k) · W (q, k)` —, into a zero accumulator; it does the
  same for the block of `h` rows, adds the two products, then adds the bias, a [1, 1024] row broadcast down the 256 rows.
  That is `Cell.pre` on row `p` of the two blocks. The stored values are the sigmoid or tanh of it, and the new cell and
  hidden states formed entrywise with the block of `c` rows: the cell of Proof/CellSpec.lean, row by row.
-/
import proofs.«131261_j27659589386821_1_alg».proof.Proof.Gen.KernelIdeal.Skeleton
import proofs.«131261_j27659589386821_1_alg».proof.Proof.CellSpec
import Idealize.ShloMosaic.Lib.ValueIdx
import Idealize.ShloMosaic.Lib.ValueLayout
import Idealize.ShloMosaic.Lib.Pipeline.Value
import Idealize.ShloMosaic.PureOps.Ideal.Laws

noncomputable section

namespace Cert.BlockCell

open Cert.KernelIdeal Cert.KernelIdeal.Gen Idealize.ShloMosaic Idealize.ShloMosaic.ValueIdx
open scoped BigOperators

/-! ## The product that contracts the last axis of both factors -/

theorem lhs_row (i : S256x1024.Idx) (u : dot_S256x1024_S1024x1024_S256x1024_1_1_0_0_n_n.contr.Idx) :
    (dot_S256x1024_S1024x1024_S256x1024_1_1_0_0_n_n.lhsIdx i u 0).val = (i 0).val := by
  unfold DotDims.lhsIdx
  rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
  rfl

theorem lhs_contr (i : S256x1024.Idx) (u : dot_S256x1024_S1024x1024_S256x1024_1_1_0_0_n_n.contr.Idx) :
    (dot_S256x1024_S1024x1024_S256x1024_1_1_0_0_n_n.lhsIdx i u 1).val = (u ⟨0, by decide⟩).val :=
  dot_S256x1024_S1024x1024_S256x1024_1_1_0_0_n_n.lhsIdx_val_of_single rfl i u

theorem rhs_row (i : S256x1024.Idx) (u : dot_S256x1024_S1024x1024_S256x1024_1_1_0_0_n_n.contr.Idx) :
    (dot_S256x1024_S1024x1024_S256x1024_1_1_0_0_n_n.rhsIdx i u 0).val = (i 1).val := by
  unfold DotDims.rhsIdx
  rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
  rfl

theorem rhs_contr (i : S256x1024.Idx) (u : dot_S256x1024_S1024x1024_S256x1024_1_1_0_0_n_n.contr.Idx) :
    (dot_S256x1024_S1024x1024_S256x1024_1_1_0_0_n_n.rhsIdx i u 1).val = (u ⟨0, by decide⟩).val :=
  dot_S256x1024_S1024x1024_S256x1024_1_1_0_0_n_n.rhsIdx_val_of_single rfl i u

/-- `X · Wᵀ` into a zero accumulator, at `(p, q)`: row `p` of `X` against row `q` of `W`. -/
theorem prodT_apply (X : FVec Ideal S256x1024 .bf16) (W : FVec Ideal S1024x1024 .bf16) (p : Fin 256) (q : Fin 1024) :
    matmul dot_S256x1024_S1024x1024_S256x1024_1_1_0_0_n_n none X W (constant S256x1024 .f32 0x00000000#32) (ix2 p q)
      = ∑ k : Fin 1024, X (ix2 p k) * W (ix2 q k) := by
  simp only [matmul]
  rw [Ideal.matmul_constant_zero_apply, ← Equiv.sum_comp (ValueIdx.contrEquiv1 dot_S256x1024_S1024x1024_S256x1024_1_1_0_0_n_n 1024 rfl rfl).symm]
  refine Finset.sum_congr rfl fun k _ => ?_
  have hk := ValueIdx.contrEquiv1_symm_val dot_S256x1024_S1024x1024_S256x1024_1_1_0_0_n_n 1024 rfl rfl k
  have el : dot_S256x1024_S1024x1024_S256x1024_1_1_0_0_n_n.lhsIdx (ix2 p q) ((ValueIdx.contrEquiv1 dot_S256x1024_S1024x1024_S256x1024_1_1_0_0_n_n 1024 rfl rfl).symm k) = ix2 p k := funext fun a => Fin.ext (by
    match a with
    | ⟨0, _⟩ => exact lhs_row _ _
    | ⟨1, _⟩ => exact (lhs_contr _ _).trans hk)
  have er : dot_S256x1024_S1024x1024_S256x1024_1_1_0_0_n_n.rhsIdx (ix2 p q) ((ValueIdx.contrEquiv1 dot_S256x1024_S1024x1024_S256x1024_1_1_0_0_n_n 1024 rfl rfl).symm k) = ix2 q k := funext fun a => Fin.ext (by
    match a with
    | ⟨0, _⟩ => exact rhs_row _ _
    | ⟨1, _⟩ => exact (rhs_contr _ _).trans hk)
  rw [el, er]

/-! ## One gate's pre-activation of a block -/

/-- A bias as the body loads it, a [1, 1024] row, read as a vector. -/
def biasRow (b : FVec Ideal S1x1024 .f32) : Cell.Row := fun q => b (ix2 (0 : Fin 1) q)

/-- Rows `p` of the two blocks. -/
def blkRow (X : FVec Ideal S256x1024 .bf16) (p : Fin 256) : Cell.Row := fun k => X (ix2 p k)

/-- The two products added, then the bias row broadcast down the block. -/
def gateBlock (X H : FVec Ideal S256x1024 .bf16) (W Wh : FVec Ideal S1024x1024 .bf16) (b : FVec Ideal S1x1024 .f32) :
    FVec Ideal S256x1024 .f32 :=
  addf (addf (matmul dot_S256x1024_S1024x1024_S256x1024_1_1_0_0_n_n none X W (constant S256x1024 .f32 0x00000000#32))
    (matmul dot_S256x1024_S1024x1024_S256x1024_1_1_0_0_n_n none H Wh (constant S256x1024 .f32 0x00000000#32)))
    (broadcastTo S256x1024 b broadcasts_S1x1024_S256x1024)

theorem gateBlock_apply (X H : FVec Ideal S256x1024 .bf16) (W Wh : FVec Ideal S1024x1024 .bf16) (b : FVec Ideal S1x1024 .f32)
    (p : Fin 256) (q : Fin 1024) :
    gateBlock X H W Wh b (ix2 p q) = Cell.pre (Cell.matOf W) (Cell.matOf Wh) (biasRow b) (blkRow X p) (blkRow H p) q := by
  unfold gateBlock
  rw [addf_apply, addf_apply, prodT_apply, prodT_apply, broadcastTo_1b_ab_apply]
  rfl

/-! ## The body's payloads, as the frame applies them to the loaded blocks

The body's shape casts are all from a shape to itself, so they drop; what is left of each gate is `gateBlock`. -/

theorem pay3_eq (X H : Vec Ideal S256x1024 .bf16) (W Wh : Vec Ideal S1024x1024 .bf16) (b : Vec Ideal S1x1024 .f32) :
    k0_pay3 X H W Wh b = gateBlock X H W Wh b := by
  unfold k0_pay3 k0_pay1 k0_pay2 gateBlock
  simp only [shapeCast_self]

theorem pay4_eq (X H : Vec Ideal S256x1024 .bf16) (W Wh : Vec Ideal S1024x1024 .bf16) (b : Vec Ideal S1x1024 .f32) :
    k0_pay4 X H W Wh b = gateBlock X H W Wh b := by
  unfold k0_pay4 k0_pay1 k0_pay2 gateBlock
  simp only [shapeCast_self]

theorem pay9_eq (X H : Vec Ideal S256x1024 .bf16) (W Wh : Vec Ideal S1024x1024 .bf16) (b : Vec Ideal S1x1024 .f32) :
    k0_pay9 (k0_pay2 H) (k0_pay5 X W) (k0_pay6 Wh) b = tanh (gateBlock X H W Wh b) := by
  unfold k0_pay9 k0_pay5 k0_pay6 k0_pay1 k0_pay2 gateBlock
  simp only [shapeCast_self]

theorem pay10_eq (X H : Vec Ideal S256x1024 .bf16) (W Wh : Vec Ideal S1024x1024 .bf16) (b : Vec Ideal S1x1024 .f32) :
    k0_pay10 (k0_pay1 X) (k0_pay2 H) W Wh b = logistic (gateBlock X H W Wh b) := by
  unfold k0_pay10 k0_pay1 k0_pay2 gateBlock
  simp only [shapeCast_self]

/-- The cell's weights as one grid point loads them: the four input-weight blocks, the four hidden-weight blocks (each the
    whole matrix) and the four bias rows, gate order i, f, g, o. -/
def blockWeights (Wi Wf Wg Wo Ui Uf Ug Uo : Vec Ideal S1024x1024 .bf16) (bi bf bg bo : Vec Ideal S1x1024 .f32) : Cell.Weights :=
  ⟨Cell.matOf Wi, Cell.matOf Wf, Cell.matOf Wg, Cell.matOf Wo, Cell.matOf Ui, Cell.matOf Uf, Cell.matOf Ug, Cell.matOf Uo,
    biasRow bi, biasRow bf, biasRow bg, biasRow bo⟩

section Payloads

variable (X H : Vec Ideal S256x1024 .bf16) (C : Vec Ideal S256x1024 .f32)
  (Wi Wf Wg Wo Ui Uf Ug Uo : Vec Ideal S1024x1024 .bf16) (bi bf bg bo : Vec Ideal S1x1024 .f32)
  (p : Fin 256) (q : Fin 1024)

/-- The input gate's block at `(p, q)`. -/
theorem payI_apply : k0_pay7 (k0_pay3 X H Wi Ui bi) (ix2 p q)
    = Cell.gateI (blockWeights Wi Wf Wg Wo Ui Uf Ug Uo bi bf bg bo) (blkRow X p) (blkRow H p) q := by
  rw [pay3_eq]
  unfold k0_pay7
  show Ideal.logistic (gateBlock X H Wi Ui bi (ix2 p q)) = _
  rw [gateBlock_apply]
  rfl

/-- The forget gate's block at `(p, q)`. -/
theorem payF_apply : k0_pay8 (k0_pay4 X H Wf Uf bf) (ix2 p q)
    = Cell.gateF (blockWeights Wi Wf Wg Wo Ui Uf Ug Uo bi bf bg bo) (blkRow X p) (blkRow H p) q := by
  rw [pay4_eq]
  unfold k0_pay8
  show Ideal.logistic (gateBlock X H Wf Uf bf (ix2 p q)) = _
  rw [gateBlock_apply]
  rfl

/-- The candidate's block at `(p, q)`. -/
theorem payG_apply : k0_pay9 (k0_pay2 H) (k0_pay5 X Wg) (k0_pay6 Ug) bg (ix2 p q)
    = Cell.gateG (blockWeights Wi Wf Wg Wo Ui Uf Ug Uo bi bf bg bo) (blkRow X p) (blkRow H p) q := by
  rw [pay9_eq]
  show Ideal.tanh (gateBlock X H Wg Ug bg (ix2 p q)) = _
  rw [gateBlock_apply]
  rfl

/-- The output gate's block at `(p, q)`. -/
theorem payO_apply : k0_pay10 (k0_pay1 X) (k0_pay2 H) Wo Uo bo (ix2 p q)
    = Cell.gateO (blockWeights Wi Wf Wg Wo Ui Uf Ug Uo bi bf bg bo) (blkRow X p) (blkRow H p) q := by
  rw [pay10_eq]
  show Ideal.logistic (gateBlock X H Wo Uo bo (ix2 p q)) = _
  rw [gateBlock_apply]
  rfl

/-- The new cell state's block at `(p, q)`: `f · c + i · g` there. -/
theorem payC_apply : k0_pay11 (k0_pay2 H) C (k0_pay3 X H Wi Ui bi) (k0_pay4 X H Wf Uf bf) (k0_pay5 X Wg) (k0_pay6 Ug) bg (ix2 p q)
    = Cell.newC (blockWeights Wi Wf Wg Wo Ui Uf Ug Uo bi bf bg bo) (blkRow X p) (blkRow H p) (C (ix2 p q)) q := by
  unfold k0_pay11
  show k0_pay8 (k0_pay4 X H Wf Uf bf) (ix2 p q) * C (ix2 p q)
      + k0_pay7 (k0_pay3 X H Wi Ui bi) (ix2 p q) * k0_pay9 (k0_pay2 H) (k0_pay5 X Wg) (k0_pay6 Ug) bg (ix2 p q) = _
  rw [payF_apply X H Wi Wf Wg Wo Ui Uf Ug Uo bi bf bg bo, payI_apply X H Wi Wf Wg Wo Ui Uf Ug Uo bi bf bg bo,
    payG_apply X H Wi Wf Wg Wo Ui Uf Ug Uo bi bf bg bo]
  rfl

/-- The new hidden state's block at `(p, q)`: `o · tanh c'` there. -/
theorem payH_apply : k0_pay12 (k0_pay1 X) (k0_pay2 H) C (k0_pay3 X H Wi Ui bi) (k0_pay4 X H Wf Uf bf) (k0_pay5 X Wg) (k0_pay6 Ug) bg Wo Uo bo (ix2 p q)
    = Cell.newH (blockWeights Wi Wf Wg Wo Ui Uf Ug Uo bi bf bg bo) (blkRow X p) (blkRow H p) (C (ix2 p q)) q := by
  unfold k0_pay12
  show k0_pay10 (k0_pay1 X) (k0_pay2 H) Wo Uo bo (ix2 p q)
      * Ideal.tanh (k0_pay11 (k0_pay2 H) C (k0_pay3 X H Wi Ui bi) (k0_pay4 X H Wf Uf bf) (k0_pay5 X Wg) (k0_pay6 Ug) bg (ix2 p q)) = _
  rw [payO_apply X H Wi Wf Wg Wo Ui Uf Ug Uo bi bf bg bo, payC_apply X H C Wi Wf Wg Wo Ui Uf Ug Uo bi bf bg bo]
  rfl

end Payloads

end Cert.BlockCell

end
-- ==== Proof.PointBlocks.lean ====
/-
  What one grid point's input blocks hold, in terms of the ARGUMENT arrays.

  Before the region the program casts `x`, `h` and the eight weight matrices to bf16 — the identity on the extended
  reals — and reshapes each bias [1024] to a row [1, 1024]. Grid point `t` of 16 then sees rows `256 t … 256 t + 255` of
  `x`, `h` and `c` (block index `(t, 0)` of blocks [256, 1024]: an entry `(p, k)` of the block is entry `(256 t + p, k)` of
  the array) and the WHOLE of every weight matrix and bias row (block index `(0, 0)`).
-/
import proofs.«131261_j27659589386821_1_alg».proof.Proof.Gen.KernelIdeal.Value
import proofs.«131261_j27659589386821_1_alg».proof.Proof.BlockCell
import Idealize.ShloMosaic.Lib.StableHlo.Run

noncomputable section

namespace Cert.PointBlocks

open Cert.KernelIdeal Cert.KernelIdeal.Gen Idealize.ShloMosaic Idealize.ShloMosaic.TcCoe Idealize.SL.Sem Idealize.ShloMosaic.ValueIdx
open Cert.BlockCell

variable (m : (ℓ : Loc nD τ sig) → Buf (Elt Ideal) ℓ)

/-! ## The arrays the host operations wrote before the region -/

theorem cast_v0 (c : Dev nD) (i : S4096x1024.Idx) :
    (V m c main_v0 : S4096x1024.Idx → EReal) i = (m ((c : Thread nD τ).loc main_arg0) : S4096x1024.Idx → EReal) i := by
  have e : (V m c main_v0 : S4096x1024.Idx → EReal) = truncf (F := Ideal) .bf16 (m ((c : Thread nD τ).loc main_arg0)) bitsLt_bf16_f32 := by
    dsimp only [Gen.V, Gen.hostOps0]; after_results
  rw [e]; rfl

theorem cast_v1 (c : Dev nD) (i : S4096x1024.Idx) :
    (V m c main_v1 : S4096x1024.Idx → EReal) i = (m ((c : Thread nD τ).loc main_arg1) : S4096x1024.Idx → EReal) i := by
  have e : (V m c main_v1 : S4096x1024.Idx → EReal) = truncf (F := Ideal) .bf16 (m ((c : Thread nD τ).loc main_arg1)) bitsLt_bf16_f32 := by
    dsimp only [Gen.V, Gen.hostOps0]; after_results
  rw [e]; rfl

theorem cast_v2 (c : Dev nD) (i : S1024x1024.Idx) :
    (V m c main_v2 : S1024x1024.Idx → EReal) i = (m ((c : Thread nD τ).loc main_arg3) : S1024x1024.Idx → EReal) i := by
  have e : (V m c main_v2 : S1024x1024.Idx → EReal) = truncf (F := Ideal) .bf16 (m ((c : Thread nD τ).loc main_arg3)) bitsLt_bf16_f32 := by
    dsimp only [Gen.V, Gen.hostOps0]; after_results
  rw [e]; rfl

theorem cast_v3 (c : Dev nD) (i : S1024x1024.Idx) :
    (V m c main_v3 : S1024x1024.Idx → EReal) i = (m ((c : Thread nD τ).loc main_arg5) : S1024x1024.Idx → EReal) i := by
  have e : (V m c main_v3 : S1024x1024.Idx → EReal) = truncf (F := Ideal) .bf16 (m ((c : Thread nD τ).loc main_arg5)) bitsLt_bf16_f32 := by
    dsimp only [Gen.V, Gen.hostOps0]; after_results
  rw [e]; rfl

theorem cast_v4 (c : Dev nD) (i : S1024x1024.Idx) :
    (V m c main_v4 : S1024x1024.Idx → EReal) i = (m ((c : Thread nD τ).loc main_arg7) : S1024x1024.Idx → EReal) i := by
  have e : (V m c main_v4 : S1024x1024.Idx → EReal) = truncf (F := Ideal) .bf16 (m ((c : Thread nD τ).loc main_arg7)) bitsLt_bf16_f32 := by
    dsimp only [Gen.V, Gen.hostOps0]; after_results
  rw [e]; rfl

theorem cast_v5 (c : Dev nD) (i : S1024x1024.Idx) :
    (V m c main_v5 : S1024x1024.Idx → EReal) i = (m ((c : Thread nD τ).loc main_arg9) : S1024x1024.Idx → EReal) i := by
  have e : (V m c main_v5 : S1024x1024.Idx → EReal) = truncf (F := Ideal) .bf16 (m ((c : Thread nD τ).loc main_arg9)) bitsLt_bf16_f32 := by
    dsimp only [Gen.V, Gen.hostOps0]; after_results
  rw [e]; rfl

theorem cast_v6 (c : Dev nD) (i : S1024x1024.Idx) :
    (V m c main_v6 : S1024x1024.Idx → EReal) i = (m ((c : Thread nD τ).loc main_arg11) : S1024x1024.Idx → EReal) i := by
  have e : (V m c main_v6 : S1024x1024.Idx → EReal) = truncf (F := Ideal) .bf16 (m ((c : Thread nD τ).loc main_arg11)) bitsLt_bf16_f32 := by
    dsimp only [Gen.V, Gen.hostOps0]; after_results
  rw [e]; rfl

theorem cast_v7 (c : Dev nD) (i : S1024x1024.Idx) :
    (V m c main_v7 : S1024x1024.Idx → EReal) i = (m ((c : Thread nD τ).loc main_arg12) : S1024x1024.Idx → EReal) i := by
  have e : (V m c main_v7 : S1024x1024.Idx → EReal) = truncf (F := Ideal) .bf16 (m ((c : Thread nD τ).loc main_arg12)) bitsLt_bf16_f32 := by
    dsimp only [Gen.V, Gen.hostOps0]; after_results
  rw [e]; rfl

theorem cast_v8 (c : Dev nD) (i : S1024x1024.Idx) :
    (V m c main_v8 : S1024x1024.Idx → EReal) i = (m ((c : Thread nD τ).loc main_arg13) : S1024x1024.Idx → EReal) i := by
  have e : (V m c main_v8 : S1024x1024.Idx → EReal) = truncf (F := Ideal) .bf16 (m ((c : Thread nD τ).loc main_arg13)) bitsLt_bf16_f32 := by
    dsimp only [Gen.V, Gen.hostOps0]; after_results
  rw [e]; rfl

theorem cast_v9 (c : Dev nD) (i : S1024x1024.Idx) :
    (V m c main_v9 : S1024x1024.Idx → EReal) i = (m ((c : Thread nD τ).loc main_arg14) : S1024x1024.Idx → EReal) i := by
  have e : (V m c main_v9 : S1024x1024.Idx → EReal) = truncf (F := Ideal) .bf16 (m ((c : Thread nD τ).loc main_arg14)) bitsLt_bf16_f32 := by
    dsimp only [Gen.V, Gen.hostOps0]; after_results
  rw [e]; rfl

theorem row_v10 (c : Dev nD) (q : Fin 1024) :
    (V m c main_v10 : S1x1024.Idx → EReal) (ix2 (0 : Fin 1) q) = (m ((c : Thread nD τ).loc main_arg4) : S1024.Idx → EReal) (ix1 q) := by
  have e : (V m c main_v10 : S1x1024.Idx → EReal) = shapeCast S1x1024 (m ((c : Thread nD τ).loc main_arg4) : S1024.Idx → EReal) shapeCasts_S1024_S1x1024 := by
    dsimp only [Gen.V, Gen.hostOps0]; after_results; rfl
  rw [e]
  exact shapeCast_a_1a_apply _ _ _ _

theorem row_v11 (c : Dev nD) (q : Fin 1024) :
    (V m c main_v11 : S1x1024.Idx → EReal) (ix2 (0 : Fin 1) q) = (m ((c : Thread nD τ).loc main_arg6) : S1024.Idx → EReal) (ix1 q) := by
  have e : (V m c main_v11 : S1x1024.Idx → EReal) = shapeCast S1x1024 (m ((c : Thread nD τ).loc main_arg6) : S1024.Idx → EReal) shapeCasts_S1024_S1x1024 := by
    dsimp only [Gen.V, Gen.hostOps0]; after_results; rfl
  rw [e]
  exact shapeCast_a_1a_apply _ _ _ _

theorem row_v12 (c : Dev nD) (q : Fin 1024) :
    (V m c main_v12 : S1x1024.Idx → EReal) (ix2 (0 : Fin 1) q) = (m ((c : Thread nD τ).loc main_arg8) : S1024.Idx → EReal) (ix1 q) := by
  have e : (V m c main_v12 : S1x1024.Idx → EReal) = shapeCast S1x1024 (m ((c : Thread nD τ).loc main_arg8) : S1024.Idx → EReal) shapeCasts_S1024_S1x1024 := by
    dsimp only [Gen.V, Gen.hostOps0]; after_results; rfl
  rw [e]
  exact shapeCast_a_1a_apply _ _ _ _

theorem row_v13 (c : Dev nD) (q : Fin 1024) :
    (V m c main_v13 : S1x1024.Idx → EReal) (ix2 (0 : Fin 1) q) = (m ((c : Thread nD τ).loc main_arg10) : S1024.Idx → EReal) (ix1 q) := by
  have e : (V m c main_v13 : S1x1024.Idx → EReal) = shapeCast S1x1024 (m ((c : Thread nD τ).loc main_arg10) : S1024.Idx → EReal) shapeCasts_S1024_S1x1024 := by
    dsimp only [Gen.V, Gen.hostOps0]; after_results; rfl
  rw [e]
  exact shapeCast_a_1a_apply _ _ _ _

/-! ## The index maps, decided over the sixteen grid points -/

/-- The three batch windows sit at block `(t, 0)`. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The eight weight windows and four bias windows sit at block `(0, 0)` at every point. -/
theorem idx_whole : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0) :=
  (by decide +kernel : ∀ t : Fin grid0.N, _)

/-! ## The blocks at a point -/

/-- The array row that block row `p` of point `t` is: `256 t + p`. -/
def rowAt (t : Fin cfg0.N) (p : Fin 256) : Fin 4096 :=
  ⟨256 * t.val + p.val, by have ht : t.val < 16 := lt_of_lt_of_eq t.isLt N_0; have := p.isLt; omega⟩

theorem rowAt_val (t : Fin cfg0.N) (p : Fin 256) : (rowAt t p).val = 256 * t.val + p.val := rfl

theorem x_entry (c : Dev nD) (t : Fin cfg0.N) (p : Fin 256) (k : Fin 1024) :
    iblk m c 0 t (ix2 p k) = (m ((c : Thread nD τ).loc main_arg0) : S4096x1024.Idx → EReal) (ix2 (rowAt t p) k) := by
  show (V m c main_v0 : S4096x1024.Idx → EReal) (((cfg0.win 0).blk t).view.emb (ix2 p k)) = _
  rw [cast_v0]
  congr 1
  obtain ⟨e0, e1, -⟩ := idx_rows t
  funext a; apply Fin.ext
  match a with
  | ⟨0, _⟩ => show win0_0.index t (0 : Fin 2) * 256 + 1 * p.val = 256 * t.val + p.val; omega
  | ⟨1, _⟩ => show win0_0.index t (1 : Fin 2) * 1024 + 1 * k.val = k.val; omega

theorem h_entry (c : Dev nD) (t : Fin cfg0.N) (p : Fin 256) (k : Fin 1024) :
    iblk m c 1 t (ix2 p k) = (m ((c : Thread nD τ).loc main_arg1) : S4096x1024.Idx → EReal) (ix2 (rowAt t p) k) := by
  show (V m c main_v1 : S4096x1024.Idx → EReal) (((cfg0.win 1).blk t).view.emb (ix2 p k)) = _
  rw [cast_v1]
  congr 1
  obtain ⟨-, -, e0, e1, -⟩ := idx_rows t
  funext a; apply Fin.ext
  match a with
  | ⟨0, _⟩ => show win0_1.index t (0 : Fin 2) * 256 + 1 * p.val = 256 * t.val + p.val; omega
  | ⟨1, _⟩ => show win0_1.index t (1 : Fin 2) * 1024 + 1 * k.val = k.val; omega

theorem c_entry (c : Dev nD) (t : Fin cfg0.N) (p : Fin 256) (k : Fin 1024) :
    iblk m c 2 t (ix2 p k) = (m ((c : Thread nD τ).loc main_arg2) : S4096x1024.Idx → EReal) (ix2 (rowAt t p) k) := by
  show (V m c main_arg2 : S4096x1024.Idx → EReal) (((cfg0.win 2).blk t).view.emb (ix2 p k)) = _
  rw [V_main_arg2]
  congr 1
  obtain ⟨-, -, -, -, e0, e1⟩ := idx_rows t
  funext a; apply Fin.ext
  match a with
  | ⟨0, _⟩ => show win0_2.index t (0 : Fin 2) * 256 + 1 * p.val = 256 * t.val + p.val; omega
  | ⟨1, _⟩ => show win0_2.index t (1 : Fin 2) * 1024 + 1 * k.val = k.val; omega

/-- Row `p` of the block of `x` rows is row `256 t + p` of `x`; likewise `h`. -/
theorem x_row (c : Dev nD) (t : Fin cfg0.N) (p : Fin 256) :
    blkRow (iblk m c 0 t) p = Cell.rowOf (m ((c : Thread nD τ).loc main_arg0)) (rowAt t p) :=
  funext fun k => x_entry m c t p k

theorem h_row (c : Dev nD) (t : Fin cfg0.N) (p : Fin 256) :
    blkRow (iblk m c 1 t) p = Cell.rowOf (m ((c : Thread nD τ).loc main_arg1)) (rowAt t p) :=
  funext fun k => h_entry m c t p k

end Cert.PointBlocks

end
-- ==== Proof.PointWeights.lean ====
/-
  The weights one grid point loads are the cell's weights read off the argument arrays.

  Every weight window and bias window sits at block `(0, 0)` at every grid point and its block is the whole array, so
  an entry of the block is the same entry of the array; the arrays are the bf16 casts of the weight arguments (the
  identity here) and the biases as rows [1, 1024].
-/
import proofs.«131261_j27659589386821_1_alg».proof.Proof.PointBlocks

noncomputable section

namespace Cert.PointBlocks

open Cert.KernelIdeal Cert.KernelIdeal.Gen Idealize.ShloMosaic Idealize.ShloMosaic.TcCoe Idealize.SL.Sem Idealize.ShloMosaic.ValueIdx
open Cert.BlockCell

variable (m : (ℓ : Loc nD τ sig) → Buf (Elt Ideal) ℓ)

/-- The cell's weights from the kernel program's arguments: input weights `W_ii, W_if, W_ig, W_io`, hidden weights
    `W_hi, W_hf, W_hg, W_ho`, biases `b_ii, b_if, b_ig, b_io`. -/
def argWeights (c : Dev nD) : Cell.Weights :=
  Cell.weightsOf (m ((c : Thread nD τ).loc main_arg3)) (m ((c : Thread nD τ).loc main_arg5)) (m ((c : Thread nD τ).loc main_arg7))
    (m ((c : Thread nD τ).loc main_arg9)) (m ((c : Thread nD τ).loc main_arg11)) (m ((c : Thread nD τ).loc main_arg12))
    (m ((c : Thread nD τ).loc main_arg13)) (m ((c : Thread nD τ).loc main_arg14)) (m ((c : Thread nD τ).loc main_arg4))
    (m ((c : Thread nD τ).loc main_arg6)) (m ((c : Thread nD τ).loc main_arg8)) (m ((c : Thread nD τ).loc main_arg10))

theorem mat_w3 (c : Dev nD) (t : Fin cfg0.N) : Cell.matOf (iblk m c 3 t) = Cell.matOf (m ((c : Thread nD τ).loc main_arg3)) := by
  funext q k
  show (V m c main_v2 : S1024x1024.Idx → EReal) (((cfg0.win 3).blk t).view.emb (ix2 q k)) = _
  rw [cast_v2]
  show _ = (m ((c : Thread nD τ).loc main_arg3) : S1024x1024.Idx → EReal) (ix2 q k)
  congr 1
  have e := (idx_whole t).1
  funext a; apply Fin.ext
  match a with
  | ⟨0, _⟩ => show win0_3.index t (0 : Fin 2) * 1024 + 1 * q.val = q.val; omega
  | ⟨1, _⟩ => show win0_3.index t (1 : Fin 2) * 1024 + 1 * k.val = k.val; omega

theorem mat_w4 (c : Dev nD) (t : Fin cfg0.N) : Cell.matOf (iblk m c 4 t) = Cell.matOf (m ((c : Thread nD τ).loc main_arg5)) := by
  funext q k
  show (V m c main_v3 : S1024x1024.Idx → EReal) (((cfg0.win 4).blk t).view.emb (ix2 q k)) = _
  rw [cast_v3]
  show _ = (m ((c : Thread nD τ).loc main_arg5) : S1024x1024.Idx → EReal) (ix2 q k)
  congr 1
  have e := (idx_whole t).2.1
  funext a; apply Fin.ext
  match a with
  | ⟨0, _⟩ => show win0_4.index t (0 : Fin 2) * 1024 + 1 * q.val = q.val; omega
  | ⟨1, _⟩ => show win0_4.index t (1 : Fin 2) * 1024 + 1 * k.val = k.val; omega

theorem mat_w5 (c : Dev nD) (t : Fin cfg0.N) : Cell.matOf (iblk m c 5 t) = Cell.matOf (m ((c : Thread nD τ).loc main_arg7)) := by
  funext q k
  show (V m c main_v4 : S1024x1024.Idx → EReal) (((cfg0.win 5).blk t).view.emb (ix2 q k)) = _
  rw [cast_v4]
  show _ = (m ((c : Thread nD τ).loc main_arg7) : S1024x1024.Idx → EReal) (ix2 q k)
  congr 1
  have e := (idx_whole t).2.2.1
  funext a; apply Fin.ext
  match a with
  | ⟨0, _⟩ => show win0_5.index t (0 : Fin 2) * 1024 + 1 * q.val = q.val; omega
  | ⟨1, _⟩ => show win0_5.index t (1 : Fin 2) * 1024 + 1 * k.val = k.val; omega

theorem mat_w6 (c : Dev nD) (t : Fin cfg0.N) : Cell.matOf (iblk m c 6 t) = Cell.matOf (m ((c : Thread nD τ).loc main_arg9)) := by
  funext q k
  show (V m c main_v5 : S1024x1024.Idx → EReal) (((cfg0.win 6).blk t).view.emb (ix2 q k)) = _
  rw [cast_v5]
  show _ = (m ((c : Thread nD τ).loc main_arg9) : S1024x1024.Idx → EReal) (ix2 q k)
  congr 1
  have e := (idx_whole t).2.2.2.1
  funext a; apply Fin.ext
  match a with
  | ⟨0, _⟩ => show win0_6.index t (0 : Fin 2) * 1024 + 1 * q.val = q.val; omega
  | ⟨1, _⟩ => show win0_6.index t (1 : Fin 2) * 1024 + 1 * k.val = k.val; omega

theorem mat_w7 (c : Dev nD) (t : Fin cfg0.N) : Cell.matOf (iblk m c 7 t) = Cell.matOf (m ((c : Thread nD τ).loc main_arg11)) := by
  funext q k
  show (V m c main_v6 : S1024x1024.Idx → EReal) (((cfg0.win 7).blk t).view.emb (ix2 q k)) = _
  rw [cast_v6]
  show _ = (m ((c : Thread nD τ).loc main_arg11) : S1024x1024.Idx → EReal) (ix2 q k)
  congr 1
  have e := (idx_whole t).2.2.2.2.1
  funext a; apply Fin.ext
  match a with
  | ⟨0, _⟩ => show win0_7.index t (0 : Fin 2) * 1024 + 1 * q.val = q.val; omega
  | ⟨1, _⟩ => show win0_7.index t (1 : Fin 2) * 1024 + 1 * k.val = k.val; omega

theorem mat_w8 (c : Dev nD) (t : Fin cfg0.N) : Cell.matOf (iblk m c 8 t) = Cell.matOf (m ((c : Thread nD τ).loc main_arg12)) := by
  funext q k
  show (V m c main_v7 : S1024x1024.Idx → EReal) (((cfg0.win 8).blk t).view.emb (ix2 q k)) = _
  rw [cast_v7]
  show _ = (m ((c : Thread nD τ).loc main_arg12) : S1024x1024.Idx → EReal) (ix2 q k)
  congr 1
  have e := (idx_whole t).2.2.2.2.2.1
  funext a; apply Fin.ext
  match a with
  | ⟨0, _⟩ => show win0_8.index t (0 : Fin 2) * 1024 + 1 * q.val = q.val; omega
  | ⟨1, _⟩ => show win0_8.index t (1 : Fin 2) * 1024 + 1 * k.val = k.val; omega

theorem mat_w9 (c : Dev nD) (t : Fin cfg0.N) : Cell.matOf (iblk m c 9 t) = Cell.matOf (m ((c : Thread nD τ).loc main_arg13)) := by
  funext q k
  show (V m c main_v8 : S1024x1024.Idx → EReal) (((cfg0.win 9).blk t).view.emb (ix2 q k)) = _
  rw [cast_v8]
  show _ = (m ((c : Thread nD τ).loc main_arg13) : S1024x1024.Idx → EReal) (ix2 q k)
  congr 1
  have e := (idx_whole t).2.2.2.2.2.2.1
  funext a; apply Fin.ext
  match a with
  | ⟨0, _⟩ => show win0_9.index t (0 : Fin 2) * 1024 + 1 * q.val = q.val; omega
  | ⟨1, _⟩ => show win0_9.index t (1 : Fin 2) * 1024 + 1 * k.val = k.val; omega

theorem mat_w10 (c : Dev nD) (t : Fin cfg0.N) : Cell.matOf (iblk m c 10 t) = Cell.matOf (m ((c : Thread nD τ).loc main_arg14)) := by
  funext q k
  show (V m c main_v9 : S1024x1024.Idx → EReal) (((cfg0.win 10).blk t).view.emb (ix2 q k)) = _
  rw [cast_v9]
  show _ = (m ((c : Thread nD τ).loc main_arg14) : S1024x1024.Idx → EReal) (ix2 q k)
  congr 1
  have e := (idx_whole t).2.2.2.2.2.2.2.1
  funext a; apply Fin.ext
  match a with
  | ⟨0, _⟩ => show win0_10.index t (0 : Fin 2) * 1024 + 1 * q.val = q.val; omega
  | ⟨1, _⟩ => show win0_10.index t (1 : Fin 2) * 1024 + 1 * k.val = k.val; omega

theorem bias_w11 (c : Dev nD) (t : Fin cfg0.N) : biasRow (iblk m c 11 t) = Cell.vecOf (m ((c : Thread nD τ).loc main_arg4)) := by
  funext q
  show (V m c main_v10 : S1x1024.Idx → EReal) (((cfg0.win 11).blk t).view.emb (ix2 (0 : Fin 1) q)) = _
  have e := (idx_whole t).2.2.2.2.2.2.2.2.1
  have hemb : ((cfg0.win 11).blk t).view.emb (ix2 (0 : Fin 1) q) = ix2 (0 : Fin 1) q := by
    funext a; apply Fin.ext
    match a with
    | ⟨0, _⟩ => show win0_11.index t (0 : Fin 2) * 1 + 1 * 0 = 0; omega
    | ⟨1, _⟩ => show win0_11.index t (1 : Fin 2) * 1024 + 1 * q.val = q.val; omega
  rw [hemb, row_v10]
  rfl

theorem bias_w12 (c : Dev nD) (t : Fin cfg0.N) : biasRow (iblk m c 12 t) = Cell.vecOf (m ((c : Thread nD τ).loc main_arg6)) := by
  funext q
  show (V m c main_v11 : S1x1024.Idx → EReal) (((cfg0.win 12).blk t).view.emb (ix2 (0 : Fin 1) q)) = _
  have e := (idx_whole t).2.2.2.2.2.2.2.2.2.1
  have hemb : ((cfg0.win 12).blk t).view.emb (ix2 (0 : Fin 1) q) = ix2 (0 : Fin 1) q := by
    funext a; apply Fin.ext
    match a with
    | ⟨0, _⟩ => show win0_12.index t (0 : Fin 2) * 1 + 1 * 0 = 0; omega
    | ⟨1, _⟩ => show win0_12.index t (1 : Fin 2) * 1024 + 1 * q.val = q.val; omega
  rw [hemb, row_v11]
  rfl

theorem bias_w13 (c : Dev nD) (t : Fin cfg0.N) : biasRow (iblk m c 13 t) = Cell.vecOf (m ((c : Thread nD τ).loc main_arg8)) := by
  funext q
  show (V m c main_v12 : S1x1024.Idx → EReal) (((cfg0.win 13).blk t).view.emb (ix2 (0 : Fin 1) q)) = _
  have e := (idx_whole t).2.2.2.2.2.2.2.2.2.2.1
  have hemb : ((cfg0.win 13).blk t).view.emb (ix2 (0 : Fin 1) q) = ix2 (0 : Fin 1) q := by
    funext a; apply Fin.ext
    match a with
    | ⟨0, _⟩ => show win0_13.index t (0 : Fin 2) * 1 + 1 * 0 = 0; omega
    | ⟨1, _⟩ => show win0_13.index t (1 : Fin 2) * 1024 + 1 * q.val = q.val; omega
  rw [hemb, row_v12]
  rfl

theorem bias_w14 (c : Dev nD) (t : Fin cfg0.N) : biasRow (iblk m c 14 t) = Cell.vecOf (m ((c : Thread nD τ).loc main_arg10)) := by
  funext q
  show (V m c main_v13 : S1x1024.Idx → EReal) (((cfg0.win 14).blk t).view.emb (ix2 (0 : Fin 1) q)) = _
  have e := (idx_whole t).2.2.2.2.2.2.2.2.2.2.2
  have hemb : ((cfg0.win 14).blk t).view.emb (ix2 (0 : Fin 1) q) = ix2 (0 : Fin 1) q := by
    funext a; apply Fin.ext
    match a with
    | ⟨0, _⟩ => show win0_14.index t (0 : Fin 2) * 1 + 1 * 0 = 0; omega
    | ⟨1, _⟩ => show win0_14.index t (1 : Fin 2) * 1024 + 1 * q.val = q.val; omega
  rw [hemb, row_v13]
  rfl

/-- At every grid point the body works with the cell's weights. -/
theorem weights_eq (c : Dev nD) (t : Fin cfg0.N) :
    blockWeights (iblk m c 3 t) (iblk m c 4 t) (iblk m c 5 t) (iblk m c 6 t) (iblk m c 7 t) (iblk m c 8 t) (iblk m c 9 t) (iblk m c 10 t)
      (iblk m c 11 t) (iblk m c 12 t) (iblk m c 13 t) (iblk m c 14 t) = argWeights m c := by
  unfold blockWeights argWeights Cell.weightsOf
  rw [mat_w3, mat_w4, mat_w5, mat_w6, mat_w7, mat_w8, mat_w9, mat_w10, bias_w11, bias_w12, bias_w13, bias_w14]

end Cert.PointBlocks

end
-- ==== Proof.OutIndex.lean ====
/-
  The six output windows all sit at block `(t, 0)` of blocks [256, 1024]: grid point `t` writes rows
  `256 t … 256 t + 255` of each result, and the sixteen points between them write every row once.
-/
import proofs.«131261_j27659589386821_1_alg».proof.Proof.PointWeights

noncomputable section

namespace Cert.Outputs

open Cert.KernelIdeal Cert.KernelIdeal.Gen Idealize.ShloMosaic Idealize.ShloMosaic.TcCoe Idealize.SL.Sem Idealize.ShloMosaic.ValueIdx

/-- The origin of a whole-block rectangle. -/
theorem origin : (![0, 0] : Fin 2 → Nat) = fun _ => 0 := funext fun a => by fin_cases a <;> rfl

/-- The output windows' index maps, decided over the sixteen grid points. -/
theorem idx_out : ∀ t : Fin cfg0.N,
    (win0_15.index t (0 : Fin 2) = t.val ∧ win0_15.index t (1 : Fin 2) = 0)
    ∧ (win0_16.index t (0 : Fin 2) = t.val ∧ win0_16.index t (1 : Fin 2) = 0)
    ∧ (win0_17.index t (0 : Fin 2) = t.val ∧ win0_17.index t (1 : Fin 2) = 0)
    ∧ (win0_18.index t (0 : Fin 2) = t.val ∧ win0_18.index t (1 : Fin 2) = 0)
    ∧ (win0_19.index t (0 : Fin 2) = t.val ∧ win0_19.index t (1 : Fin 2) = 0)
    ∧ (win0_20.index t (0 : Fin 2) = t.val ∧ win0_20.index t (1 : Fin 2) = 0) :=
  (by decide +kernel : ∀ t : Fin grid0.N, _)

/-- The grid point that writes array row `r`: `r / 256`. -/
def pointOf (r : Nat) (hr : r < 4096) : Fin cfg0.N := ⟨r / 256, by show r / 256 < grid0.N; rw [N_0]; omega⟩

theorem pointOf_val (r : Nat) (hr : r < 4096) : (pointOf r hr).val = r / 256 := rfl

end Cert.Outputs

end
-- ==== Proof.OutHidden.lean ====
/-
  The new hidden state, as a whole array.

  Grid point `t` stores one whole block: `o · tanh c'` on rows `256 t … 256 t + 255`, computed from those rows of
  `x`, `h` and `c` and the whole weights — block `t` of `Cell.outH` of the arguments. The sixteen blocks cover the
  array, so it ends holding `Cell.outH`.
-/
import proofs.«131261_j27659589386821_1_alg».proof.Proof.OutIndex

noncomputable section

namespace Cert.Outputs

open Cert.KernelIdeal Cert.KernelIdeal.Gen Idealize.ShloMosaic Idealize.ShloMosaic.TcCoe Idealize.SL.Sem Idealize.ShloMosaic.ValueIdx
open Idealize.ShloMosaic.Pipeline (Dat)
open Cert.BlockCell Cert.PointBlocks

variable (m : (ℓ : Loc nD τ sig) → Buf (Elt Ideal) ℓ)

/-- What point `t` writes back to the hidden-state window is block `t` of the cell's hidden state. -/
theorem flushedH (c : Dev nD) (t : Fin cfg0.N) :
    (dats m 0 c).flushed 15 t = ((cfg0.win 15).blk t).view.read (Elt Ideal)
      (Cell.outH (m ((c : Thread nD τ).loc main_arg0)) (m ((c : Thread nD τ).loc main_arg1)) (m ((c : Thread nD τ).loc main_arg2)) (argWeights m c)) := by
  rw [Value.flushed15]
  unfold out0_15
  rw [View.canon_unit_zero origin]
  simp only [View.ld_unit_zero (S := S256x1024) origin, View.ld_unit_zero (S := S1024x1024) origin, View.ld_unit_zero (S := S1x1024) origin]
  funext y
  obtain ⟨p, q, rfl⟩ : ∃ (p : Fin 256) (q : Fin 1024), y = ix2 p q := ⟨y 0, y 1, eq_ix2 y⟩
  show k0_pay12 (k0_pay1 (iblk m c 0 t)) (k0_pay2 (iblk m c 1 t)) (iblk m c 2 t) (k0_pay3 (iblk m c 0 t) (iblk m c 1 t) (iblk m c 3 t) (iblk m c 7 t) (iblk m c 11 t)) (k0_pay4 (iblk m c 0 t) (iblk m c 1 t) (iblk m c 4 t) (iblk m c 8 t) (iblk m c 12 t)) (k0_pay5 (iblk m c 0 t) (iblk m c 5 t)) (k0_pay6 (iblk m c 9 t)) (iblk m c 13 t) (iblk m c 6 t) (iblk m c 10 t) (iblk m c 14 t) (ix2 p q)
    = Cell.outH (m ((c : Thread nD τ).loc main_arg0)) (m ((c : Thread nD τ).loc main_arg1)) (m ((c : Thread nD τ).loc main_arg2)) (argWeights m c) (((cfg0.win 15).blk t).view.emb (ix2 p q))
  refine (payH_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p q).trans ?_
  rw [weights_eq, x_row, h_row, c_entry]
  have hemb : ((cfg0.win 15).blk t).view.emb (ix2 p q) = ix2 (rowAt t p) q := by
    have e := (idx_out t).1
    funext a; apply Fin.ext
    match a with
    | ⟨0, _⟩ => show win0_15.index t (0 : Fin 2) * 256 + 1 * p.val = 256 * t.val + p.val; omega
    | ⟨1, _⟩ => show win0_15.index t (1 : Fin 2) * 1024 + 1 * q.val = q.val; omega
  rw [hemb]
  rfl

/-- An index of the array is in point `t`'s block iff each coordinate is in the block's range on its axis. -/
theorem mem_blkH (t : Fin cfg0.N) (i : S4096x1024.Idx) :
    i ∈ ((cfg0.win 15).blk t).view.set ↔ ∀ a : Fin 2, win0_15.index t a * S256x1024.size a ≤ (i a).val ∧ (i a).val < win0_15.index t a * S256x1024.size a + S256x1024.size a := by
  show i ∈ ((View.whole main_v14_0).slice (win0_15.rect t)).set ↔ _
  rw [View.set_slice_whole, Rect.mem_set_unit]
  exact Iff.rfl

/-- Every index is in the block of the point its row names. -/
theorem coverH (i : S4096x1024.Idx) : ∃ t : Fin cfg0.N, (cfg0.win 15).flush t = true ∧ i ∈ ((cfg0.win 15).blk t).view.set := by
  have hi0 : (i 0).val < 4096 := (i 0).isLt
  have hi1 : (i 1).val < 1024 := (i 1).isLt
  have e := (idx_out (pointOf (i 0).val hi0)).1
  have ht := pointOf_val (i 0).val hi0
  refine ⟨pointOf (i 0).val hi0, flush0_15 _, ?_⟩
  rw [mem_blkH]
  intro a
  match a with
  | ⟨0, _⟩ => show win0_15.index (pointOf (i 0).val hi0) (0 : Fin 2) * 256 ≤ (i 0).val ∧ (i 0).val < win0_15.index (pointOf (i 0).val hi0) (0 : Fin 2) * 256 + 256; omega
  | ⟨1, _⟩ => show win0_15.index (pointOf (i 0).val hi0) (1 : Fin 2) * 1024 ≤ (i 1).val ∧ (i 1).val < win0_15.index (pointOf (i 0).val hi0) (1 : Fin 2) * 1024 + 1024; omega

/-- The hidden-state array after the run. -/
theorem finalH (c : Dev nD) : (dats m 0 c).arrAt 15 cfg0.N
    = Cell.outH (m ((c : Thread nD τ).loc main_arg0)) (m ((c : Thread nD τ).loc main_arg1)) (m ((c : Thread nD τ).loc main_arg2)) (argWeights m c) :=
  (dats m 0 c).arrAt_eq_of_cover 15 _ (fun t _ => flushedH m c t) coverH

end Cert.Outputs

end
-- ==== Proof.OutCell.lean ====
/-
  The new cell state, as a whole array.

  Grid point `t` stores one whole block: `f · c + i · g` on rows `256 t … 256 t + 255`, from those rows of `x`, `h` and
  `c` and the whole weights — block `t` of `Cell.outC` of the arguments; the sixteen blocks cover the array.
-/
import proofs.«131261_j27659589386821_1_alg».proof.Proof.OutIndex

noncomputable section

namespace Cert.Outputs

open Cert.KernelIdeal Cert.KernelIdeal.Gen Idealize.ShloMosaic Idealize.ShloMosaic.TcCoe Idealize.SL.Sem Idealize.ShloMosaic.ValueIdx
open Idealize.ShloMosaic.Pipeline (Dat)
open Cert.BlockCell Cert.PointBlocks

variable (m : (ℓ : Loc nD τ sig) → Buf (Elt Ideal) ℓ)

/-- What point `t` writes back to the cell-state window is block `t` of the cell's new cell state. -/
theorem flushedC (c : Dev nD) (t : Fin cfg0.N) :
    (dats m 0 c).flushed 16 t = ((cfg0.win 16).blk t).view.read (Elt Ideal)
      (Cell.outC (m ((c : Thread nD τ).loc main_arg0)) (m ((c : Thread nD τ).loc main_arg1)) (m ((c : Thread nD τ).loc main_arg2)) (argWeights m c)) := by
  rw [Value.flushed16]
  unfold out0_16
  rw [View.canon_unit_zero origin]
  simp only [View.ld_unit_zero (S := S256x1024) origin, View.ld_unit_zero (S := S1024x1024) origin, View.ld_unit_zero (S := S1x1024) origin]
  funext y
  obtain ⟨p, q, rfl⟩ : ∃ (p : Fin 256) (q : Fin 1024), y = ix2 p q := ⟨y 0, y 1, eq_ix2 y⟩
  show k0_pay11 (k0_pay2 (iblk m c 1 t)) (iblk m c 2 t) (k0_pay3 (iblk m c 0 t) (iblk m c 1 t) (iblk m c 3 t) (iblk m c 7 t) (iblk m c 11 t)) (k0_pay4 (iblk m c 0 t) (iblk m c 1 t) (iblk m c 4 t) (iblk m c 8 t) (iblk m c 12 t)) (k0_pay5 (iblk m c 0 t) (iblk m c 5 t)) (k0_pay6 (iblk m c 9 t)) (iblk m c 13 t) (ix2 p q)
    = Cell.outC (m ((c : Thread nD τ).loc main_arg0)) (m ((c : Thread nD τ).loc main_arg1)) (m ((c : Thread nD τ).loc main_arg2)) (argWeights m c) (((cfg0.win 16).blk t).view.emb (ix2 p q))
  refine (payC_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p q).trans ?_
  rw [weights_eq, x_row, h_row, c_entry]
  have hemb : ((cfg0.win 16).blk t).view.emb (ix2 p q) = ix2 (rowAt t p) q := by
    have e := (idx_out t).2.1
    funext a; apply Fin.ext
    match a with
    | ⟨0, _⟩ => show win0_16.index t (0 : Fin 2) * 256 + 1 * p.val = 256 * t.val + p.val; omega
    | ⟨1, _⟩ => show win0_16.index t (1 : Fin 2) * 1024 + 1 * q.val = q.val; omega
  rw [hemb]
  rfl

theorem mem_blkC (t : Fin cfg0.N) (i : S4096x1024.Idx) :
    i ∈ ((cfg0.win 16).blk t).view.set ↔ ∀ a : Fin 2, win0_16.index t a * S256x1024.size a ≤ (i a).val ∧ (i a).val < win0_16.index t a * S256x1024.size a + S256x1024.size a := by
  show i ∈ ((View.whole main_v14_1).slice (win0_16.rect t)).set ↔ _
  rw [View.set_slice_whole, Rect.mem_set_unit]
  exact Iff.rfl

theorem coverC (i : S4096x1024.Idx) : ∃ t : Fin cfg0.N, (cfg0.win 16).flush t = true ∧ i ∈ ((cfg0.win 16).blk t).view.set := by
  have hi0 : (i 0).val < 4096 := (i 0).isLt
  have hi1 : (i 1).val < 1024 := (i 1).isLt
  have e := (idx_out (pointOf (i 0).val hi0)).2.1
  have ht := pointOf_val (i 0).val hi0
  refine ⟨pointOf (i 0).val hi0, flush0_16 _, ?_⟩
  rw [mem_blkC]
  intro a
  match a with
  | ⟨0, _⟩ => show win0_16.index (pointOf (i 0).val hi0) (0 : Fin 2) * 256 ≤ (i 0).val ∧ (i 0).val < win0_16.index (pointOf (i 0).val hi0) (0 : Fin 2) * 256 + 256; omega
  | ⟨1, _⟩ => show win0_16.index (pointOf (i 0).val hi0) (1 : Fin 2) * 1024 ≤ (i 1).val ∧ (i 1).val < win0_16.index (pointOf (i 0).val hi0) (1 : Fin 2) * 1024 + 1024; omega

/-- The cell-state array after the run. -/
theorem finalC (c : Dev nD) : (dats m 0 c).arrAt 16 cfg0.N
    = Cell.outC (m ((c : Thread nD τ).loc main_arg0)) (m ((c : Thread nD τ).loc main_arg1)) (m ((c : Thread nD τ).loc main_arg2)) (argWeights m c) :=
  (dats m 0 c).arrAt_eq_of_cover 16 _ (fun t _ => flushedC m c t) coverC

end Cert.Outputs

end
-- ==== Proof.OutGateI.lean ====
/-
  The input gate, as a whole array.

  Grid point `t` stores one whole block: the sigmoid of the input gate's pre-activation on rows `256 t … 256 t + 255` —
  block `t` of `Cell.outI` of the arguments; the sixteen blocks cover the array.
-/
import proofs.«131261_j27659589386821_1_alg».proof.Proof.OutIndex

noncomputable section

namespace Cert.Outputs

open Cert.KernelIdeal Cert.KernelIdeal.Gen Idealize.ShloMosaic Idealize.ShloMosaic.TcCoe Idealize.SL.Sem Idealize.ShloMosaic.ValueIdx
open Idealize.ShloMosaic.Pipeline (Dat)
open Cert.BlockCell Cert.PointBlocks

variable (m : (ℓ : Loc nD τ sig) → Buf (Elt Ideal) ℓ)

theorem flushedI (c : Dev nD) (t : Fin cfg0.N) :
    (dats m 0 c).flushed 17 t = ((cfg0.win 17).blk t).view.read (Elt Ideal)
      (Cell.outI (m ((c : Thread nD τ).loc main_arg0)) (m ((c : Thread nD τ).loc main_arg1)) (argWeights m c)) := by
  rw [Value.flushed17]
  unfold out0_17
  rw [View.canon_unit_zero origin]
  simp only [View.ld_unit_zero (S := S256x1024) origin, View.ld_unit_zero (S := S1024x1024) origin, View.ld_unit_zero (S := S1x1024) origin]
  funext y
  obtain ⟨p, q, rfl⟩ : ∃ (p : Fin 256) (q : Fin 1024), y = ix2 p q := ⟨y 0, y 1, eq_ix2 y⟩
  show k0_pay7 (k0_pay3 (iblk m c 0 t) (iblk m c 1 t) (iblk m c 3 t) (iblk m c 7 t) (iblk m c 11 t)) (ix2 p q)
    = Cell.outI (m ((c : Thread nD τ).loc main_arg0)) (m ((c : Thread nD τ).loc main_arg1)) (argWeights m c) (((cfg0.win 17).blk t).view.emb (ix2 p q))
  refine (payI_apply (iblk m c 0 t) (iblk m c 1 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p q).trans ?_
  rw [weights_eq, x_row, h_row]
  have hemb : ((cfg0.win 17).blk t).view.emb (ix2 p q) = ix2 (rowAt t p) q := by
    have e := (idx_out t).2.2.1
    funext a; apply Fin.ext
    match a with
    | ⟨0, _⟩ => show win0_17.index t (0 : Fin 2) * 256 + 1 * p.val = 256 * t.val + p.val; omega
    | ⟨1, _⟩ => show win0_17.index t (1 : Fin 2) * 1024 + 1 * q.val = q.val; omega
  rw [hemb]
  rfl

theorem mem_blkI (t : Fin cfg0.N) (i : S4096x1024.Idx) :
    i ∈ ((cfg0.win 17).blk t).view.set ↔ ∀ a : Fin 2, win0_17.index t a * S256x1024.size a ≤ (i a).val ∧ (i a).val < win0_17.index t a * S256x1024.size a + S256x1024.size a := by
  show i ∈ ((View.whole main_v14_2).slice (win0_17.rect t)).set ↔ _
  rw [View.set_slice_whole, Rect.mem_set_unit]
  exact Iff.rfl

theorem coverI (i : S4096x1024.Idx) : ∃ t : Fin cfg0.N, (cfg0.win 17).flush t = true ∧ i ∈ ((cfg0.win 17).blk t).view.set := by
  have hi0 : (i 0).val < 4096 := (i 0).isLt
  have hi1 : (i 1).val < 1024 := (i 1).isLt
  have e := (idx_out (pointOf (i 0).val hi0)).2.2.1
  have ht := pointOf_val (i 0).val hi0
  refine ⟨pointOf (i 0).val hi0, flush0_17 _, ?_⟩
  rw [mem_blkI]
  intro a
  match a with
  | ⟨0, _⟩ => show win0_17.index (pointOf (i 0).val hi0) (0 : Fin 2) * 256 ≤ (i 0).val ∧ (i 0).val < win0_17.index (pointOf (i 0).val hi0) (0 : Fin 2) * 256 + 256; omega
  | ⟨1, _⟩ => show win0_17.index (pointOf (i 0).val hi0) (1 : Fin 2) * 1024 ≤ (i 1).val ∧ (i 1).val < win0_17.index (pointOf (i 0).val hi0) (1 : Fin 2) * 1024 + 1024; omega

/-- The input-gate array after the run. -/
theorem finalI (c : Dev nD) : (dats m 0 c).arrAt 17 cfg0.N
    = Cell.outI (m ((c : Thread nD τ).loc main_arg0)) (m ((c : Thread nD τ).loc main_arg1)) (argWeights m c) :=
  (dats m 0 c).arrAt_eq_of_cover 17 _ (fun t _ => flushedI m c t) coverI

end Cert.Outputs

end
-- ==== Proof.OutGateF.lean ====
/-
  The forget gate, as a whole array.

  Grid point `t` stores one whole block: the sigmoid of the forget gate's pre-activation on rows `256 t … 256 t + 255` —
  block `t` of `Cell.outF` of the arguments; the sixteen blocks cover the array.
-/
import proofs.«131261_j27659589386821_1_alg».proof.Proof.OutIndex

noncomputable section

namespace Cert.Outputs

open Cert.KernelIdeal Cert.KernelIdeal.Gen Idealize.ShloMosaic Idealize.ShloMosaic.TcCoe Idealize.SL.Sem Idealize.ShloMosaic.ValueIdx
open Idealize.ShloMosaic.Pipeline (Dat)
open Cert.BlockCell Cert.PointBlocks

variable (m : (ℓ : Loc nD τ sig) → Buf (Elt Ideal) ℓ)

theorem flushedF (c : Dev nD) (t : Fin cfg0.N) :
    (dats m 0 c).flushed 18 t = ((cfg0.win 18).blk t).view.read (Elt Ideal)
      (Cell.outF (m ((c : Thread nD τ).loc main_arg0)) (m ((c : Thread nD τ).loc main_arg1)) (argWeights m c)) := by
  rw [Value.flushed18]
  unfold out0_18
  rw [View.canon_unit_zero origin]
  simp only [View.ld_unit_zero (S := S256x1024) origin, View.ld_unit_zero (S := S1024x1024) origin, View.ld_unit_zero (S := S1x1024) origin]
  funext y
  obtain ⟨p, q, rfl⟩ : ∃ (p : Fin 256) (q : Fin 1024), y = ix2 p q := ⟨y 0, y 1, eq_ix2 y⟩
  show k0_pay8 (k0_pay4 (iblk m c 0 t) (iblk m c 1 t) (iblk m c 4 t) (iblk m c 8 t) (iblk m c 12 t)) (ix2 p q)
    = Cell.outF (m ((c : Thread nD τ).loc main_arg0)) (m ((c : Thread nD τ).loc main_arg1)) (argWeights m c) (((cfg0.win 18).blk t).view.emb (ix2 p q))
  refine (payF_apply (iblk m c 0 t) (iblk m c 1 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p q).trans ?_
  rw [weights_eq, x_row, h_row]
  have hemb : ((cfg0.win 18).blk t).view.emb (ix2 p q) = ix2 (rowAt t p) q := by
    have e := (idx_out t).2.2.2.1
    funext a; apply Fin.ext
    match a with
    | ⟨0, _⟩ => show win0_18.index t (0 : Fin 2) * 256 + 1 * p.val = 256 * t.val + p.val; omega
    | ⟨1, _⟩ => show win0_18.index t (1 : Fin 2) * 1024 + 1 * q.val = q.val; omega
  rw [hemb]
  rfl

theorem mem_blkF (t : Fin cfg0.N) (i : S4096x1024.Idx) :
    i ∈ ((cfg0.win 18).blk t).view.set ↔ ∀ a : Fin 2, win0_18.index t a * S256x1024.size a ≤ (i a).val ∧ (i a).val < win0_18.index t a * S256x1024.size a + S256x1024.size a := by
  show i ∈ ((View.whole main_v14_3).slice (win0_18.rect t)).set ↔ _
  rw [View.set_slice_whole, Rect.mem_set_unit]
  exact Iff.rfl

theorem coverF (i : S4096x1024.Idx) : ∃ t : Fin cfg0.N, (cfg0.win 18).flush t = true ∧ i ∈ ((cfg0.win 18).blk t).view.set := by
  have hi0 : (i 0).val < 4096 := (i 0).isLt
  have hi1 : (i 1).val < 1024 := (i 1).isLt
  have e := (idx_out (pointOf (i 0).val hi0)).2.2.2.1
  have ht := pointOf_val (i 0).val hi0
  refine ⟨pointOf (i 0).val hi0, flush0_18 _, ?_⟩
  rw [mem_blkF]
  intro a
  match a with
  | ⟨0, _⟩ => show win0_18.index (pointOf (i 0).val hi0) (0 : Fin 2) * 256 ≤ (i 0).val ∧ (i 0).val < win0_18.index (pointOf (i 0).val hi0) (0 : Fin 2) * 256 + 256; omega
  | ⟨1, _⟩ => show win0_18.index (pointOf (i 0).val hi0) (1 : Fin 2) * 1024 ≤ (i 1).val ∧ (i 1).val < win0_18.index (pointOf (i 0).val hi0) (1 : Fin 2) * 1024 + 1024; omega

/-- The forget-gate array after the run. -/
theorem finalF (c : Dev nD) : (dats m 0 c).arrAt 18 cfg0.N
    = Cell.outF (m ((c : Thread nD τ).loc main_arg0)) (m ((c : Thread nD τ).loc main_arg1)) (argWeights m c) :=
  (dats m 0 c).arrAt_eq_of_cover 18 _ (fun t _ => flushedF m c t) coverF

end Cert.Outputs

end
-- ==== Proof.OutGateG.lean ====
/-
  The candidate, as a whole array.

  Grid point `t` stores one whole block: the tanh of the candidate's pre-activation on rows `256 t … 256 t + 255` —
  block `t` of `Cell.outG` of the arguments; the sixteen blocks cover the array.
-/
import proofs.«131261_j27659589386821_1_alg».proof.Proof.OutIndex

noncomputable section

namespace Cert.Outputs

open Cert.KernelIdeal Cert.KernelIdeal.Gen Idealize.ShloMosaic Idealize.ShloMosaic.TcCoe Idealize.SL.Sem Idealize.ShloMosaic.ValueIdx
open Idealize.ShloMosaic.Pipeline (Dat)
open Cert.BlockCell Cert.PointBlocks

variable (m : (ℓ : Loc nD τ sig) → Buf (Elt Ideal) ℓ)

theorem flushedG (c : Dev nD) (t : Fin cfg0.N) :
    (dats m 0 c).flushed 19 t = ((cfg0.win 19).blk t).view.read (Elt Ideal)
      (Cell.outG (m ((c : Thread nD τ).loc main_arg0)) (m ((c : Thread nD τ).loc main_arg1)) (argWeights m c)) := by
  rw [Value.flushed19]
  unfold out0_19
  rw [View.canon_unit_zero origin]
  simp only [View.ld_unit_zero (S := S256x1024) origin, View.ld_unit_zero (S := S1024x1024) origin, View.ld_unit_zero (S := S1x1024) origin]
  funext y
  obtain ⟨p, q, rfl⟩ : ∃ (p : Fin 256) (q : Fin 1024), y = ix2 p q := ⟨y 0, y 1, eq_ix2 y⟩
  show k0_pay9 (k0_pay2 (iblk m c 1 t)) (k0_pay5 (iblk m c 0 t) (iblk m c 5 t)) (k0_pay6 (iblk m c 9 t)) (iblk m c 13 t) (ix2 p q)
    = Cell.outG (m ((c : Thread nD τ).loc main_arg0)) (m ((c : Thread nD τ).loc main_arg1)) (argWeights m c) (((cfg0.win 19).blk t).view.emb (ix2 p q))
  refine (payG_apply (iblk m c 0 t) (iblk m c 1 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p q).trans ?_
  rw [weights_eq, x_row, h_row]
  have hemb : ((cfg0.win 19).blk t).view.emb (ix2 p q) = ix2 (rowAt t p) q := by
    have e := (idx_out t).2.2.2.2.1
    funext a; apply Fin.ext
    match a with
    | ⟨0, _⟩ => show win0_19.index t (0 : Fin 2) * 256 + 1 * p.val = 256 * t.val + p.val; omega
    | ⟨1, _⟩ => show win0_19.index t (1 : Fin 2) * 1024 + 1 * q.val = q.val; omega
  rw [hemb]
  rfl

theorem mem_blkG (t : Fin cfg0.N) (i : S4096x1024.Idx) :
    i ∈ ((cfg0.win 19).blk t).view.set ↔ ∀ a : Fin 2, win0_19.index t a * S256x1024.size a ≤ (i a).val ∧ (i a).val < win0_19.index t a * S256x1024.size a + S256x1024.size a := by
  show i ∈ ((View.whole main_v14_4).slice (win0_19.rect t)).set ↔ _
  rw [View.set_slice_whole, Rect.mem_set_unit]
  exact Iff.rfl

theorem coverG (i : S4096x1024.Idx) : ∃ t : Fin cfg0.N, (cfg0.win 19).flush t = true ∧ i ∈ ((cfg0.win 19).blk t).view.set := by
  have hi0 : (i 0).val < 4096 := (i 0).isLt
  have hi1 : (i 1).val < 1024 := (i 1).isLt
  have e := (idx_out (pointOf (i 0).val hi0)).2.2.2.2.1
  have ht := pointOf_val (i 0).val hi0
  refine ⟨pointOf (i 0).val hi0, flush0_19 _, ?_⟩
  rw [mem_blkG]
  intro a
  match a with
  | ⟨0, _⟩ => show win0_19.index (pointOf (i 0).val hi0) (0 : Fin 2) * 256 ≤ (i 0).val ∧ (i 0).val < win0_19.index (pointOf (i 0).val hi0) (0 : Fin 2) * 256 + 256; omega
  | ⟨1, _⟩ => show win0_19.index (pointOf (i 0).val hi0) (1 : Fin 2) * 1024 ≤ (i 1).val ∧ (i 1).val < win0_19.index (pointOf (i 0).val hi0) (1 : Fin 2) * 1024 + 1024; omega

/-- The candidate array after the run. -/
theorem finalG (c : Dev nD) : (dats m 0 c).arrAt 19 cfg0.N
    = Cell.outG (m ((c : Thread nD τ).loc main_arg0)) (m ((c : Thread nD τ).loc main_arg1)) (argWeights m c) :=
  (dats m 0 c).arrAt_eq_of_cover 19 _ (fun t _ => flushedG m c t) coverG

end Cert.Outputs

end
-- ==== Proof.OutGateO.lean ====
/-
  The output gate, as a whole array.

  Grid point `t` stores one whole block: the sigmoid of the output gate's pre-activation on rows `256 t … 256 t + 255` —
  block `t` of `Cell.outO` of the arguments; the sixteen blocks cover the array.
-/
import proofs.«131261_j27659589386821_1_alg».proof.Proof.OutIndex

noncomputable section

namespace Cert.Outputs

open Cert.KernelIdeal Cert.KernelIdeal.Gen Idealize.ShloMosaic Idealize.ShloMosaic.TcCoe Idealize.SL.Sem Idealize.ShloMosaic.ValueIdx
open Idealize.ShloMosaic.Pipeline (Dat)
open Cert.BlockCell Cert.PointBlocks

variable (m : (ℓ : Loc nD τ sig) → Buf (Elt Ideal) ℓ)

theorem flushedO (c : Dev nD) (t : Fin cfg0.N) :
    (dats m 0 c).flushed 20 t = ((cfg0.win 20).blk t).view.read (Elt Ideal)
      (Cell.outO (m ((c : Thread nD τ).loc main_arg0)) (m ((c : Thread nD τ).loc main_arg1)) (argWeights m c)) := by
  rw [Value.flushed20]
  unfold out0_20
  rw [View.canon_unit_zero origin]
  simp only [View.ld_unit_zero (S := S256x1024) origin, View.ld_unit_zero (S := S1024x1024) origin, View.ld_unit_zero (S := S1x1024) origin]
  funext y
  obtain ⟨p, q, rfl⟩ : ∃ (p : Fin 256) (q : Fin 1024), y = ix2 p q := ⟨y 0, y 1, eq_ix2 y⟩
  show k0_pay10 (k0_pay1 (iblk m c 0 t)) (k0_pay2 (iblk m c 1 t)) (iblk m c 6 t) (iblk m c 10 t) (iblk m c 14 t) (ix2 p q)
    = Cell.outO (m ((c : Thread nD τ).loc main_arg0)) (m ((c : Thread nD τ).loc main_arg1)) (argWeights m c) (((cfg0.win 20).blk t).view.emb (ix2 p q))
  refine (payO_apply (iblk m c 0 t) (iblk m c 1 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p q).trans ?_
  rw [weights_eq, x_row, h_row]
  have hemb : ((cfg0.win 20).blk t).view.emb (ix2 p q) = ix2 (rowAt t p) q := by
    have e := (idx_out t).2.2.2.2.2
    funext a; apply Fin.ext
    match a with
    | ⟨0, _⟩ => show win0_20.index t (0 : Fin 2) * 256 + 1 * p.val = 256 * t.val + p.val; omega
    | ⟨1, _⟩ => show win0_20.index t (1 : Fin 2) * 1024 + 1 * q.val = q.val; omega
  rw [hemb]
  rfl

theorem mem_blkO (t : Fin cfg0.N) (i : S4096x1024.Idx) :
    i ∈ ((cfg0.win 20).blk t).view.set ↔ ∀ a : Fin 2, win0_20.index t a * S256x1024.size a ≤ (i a).val ∧ (i a).val < win0_20.index t a * S256x1024.size a + S256x1024.size a := by
  show i ∈ ((View.whole main_v14_5).slice (win0_20.rect t)).set ↔ _
  rw [View.set_slice_whole, Rect.mem_set_unit]
  exact Iff.rfl

theorem coverO (i : S4096x1024.Idx) : ∃ t : Fin cfg0.N, (cfg0.win 20).flush t = true ∧ i ∈ ((cfg0.win 20).blk t).view.set := by
  have hi0 : (i 0).val < 4096 := (i 0).isLt
  have hi1 : (i 1).val < 1024 := (i 1).isLt
  have e := (idx_out (pointOf (i 0).val hi0)).2.2.2.2.2
  have ht := pointOf_val (i 0).val hi0
  refine ⟨pointOf (i 0).val hi0, flush0_20 _, ?_⟩
  rw [mem_blkO]
  intro a
  match a with
  | ⟨0, _⟩ => show win0_20.index (pointOf (i 0).val hi0) (0 : Fin 2) * 256 ≤ (i 0).val ∧ (i 0).val < win0_20.index (pointOf (i 0).val hi0) (0 : Fin 2) * 256 + 256; omega
  | ⟨1, _⟩ => show win0_20.index (pointOf (i 0).val hi0) (1 : Fin 2) * 1024 ≤ (i 1).val ∧ (i 1).val < win0_20.index (pointOf (i 0).val hi0) (1 : Fin 2) * 1024 + 1024; omega

/-- The output-gate array after the run. -/
theorem finalO (c : Dev nD) : (dats m 0 c).arrAt 20 cfg0.N
    = Cell.outO (m ((c : Thread nD τ).loc main_arg0)) (m ((c : Thread nD τ).loc main_arg1)) (argWeights m c) :=
  (dats m 0 c).arrAt_eq_of_cover 20 _ (fun t _ => flushedO m c t) coverO

end Cert.Outputs

end
-- ==== Proof.RefCell.lean ====
/-
  The reference's six results, read index by index, are the cell of Proof/CellSpec.lean.

  The reference joins the four input-weight matrices along the OUT axis into one [4096, 1024] matrix, transposes it, and
  multiplies the whole batch by it; likewise the hidden weights; it joins the four biases into one [4096] vector and adds
  it to every row. Column `1024 g + q` of that [4096, 4096] array of pre-activations is therefore gate `g`'s
  pre-activation at hidden unit `q`: piece `g` of each join at row `q`. The four column bands are then cut out, the
  sigmoid spelt `1 / (1 + e^(-z))`, and the cell and hidden states formed entrywise.
-/
import proofs.«131261_j27659589386821_1_alg».proof.Proof.Gen.ReferenceIdeal.Read
import proofs.«131261_j27659589386821_1_alg».proof.Proof.CellSpec
import Idealize.ShloMosaic.Lib.ValueLayout

noncomputable section

namespace Cert.RefCell

open Cert.ReferenceIdeal Cert.ReferenceIdeal.Read Idealize.ShloMosaic Idealize.ShloMosaic.ValueIdx

/-! ## The three joins, read piece by piece

Each join lays four pieces of extent 1024 end to end along axis 0, so the entry whose axis-0 coordinate is
`1024 g + q` is piece `g` at `q`, the other coordinate unchanged. One lemma per join and piece; the index is the
caller's, with its coordinates given by equations. -/

/-- The join of the four input weight matrices: a row in the first band of 1024 rows is that row of the first matrix. -/
theorem v0_piece0 (x3 x5 x7 x9 : (⟨S1024x1024, .f32⟩ : BufTy).Contents (Elt Ideal)) (j : S4096x1024.Idx) (q k : Fin 1024)
    (h0 : (j 0).val = 0 + q.val) (h1 : (j 1).val = k.val) :
    val_main_v0 (F := Ideal) x3 x5 x7 x9 j = x3 (ix2 q k) := by
  unfold val_main_v0
  refine concatenate_apply_piece 0 _ _ j 0 (by show (0 : Nat) < 4; omega) S1024x1024 x3 rfl rfl 0 rfl (ix2 q k) ?_ ?_
  · intro b hb
    match b with
    | ⟨0, _⟩ => exact absurd rfl hb
    | ⟨1, _⟩ => exact h1.symm
  · show 0 + q.val = (j 0).val
    omega

/-- The join of the four input weight matrices: a row in the second band of 1024 rows is that row of the second matrix. -/
theorem v0_piece1 (x3 x5 x7 x9 : (⟨S1024x1024, .f32⟩ : BufTy).Contents (Elt Ideal)) (j : S4096x1024.Idx) (q k : Fin 1024)
    (h0 : (j 0).val = 1024 + q.val) (h1 : (j 1).val = k.val) :
    val_main_v0 (F := Ideal) x3 x5 x7 x9 j = x5 (ix2 q k) := by
  unfold val_main_v0
  refine concatenate_apply_piece 0 _ _ j 1 (by show (1 : Nat) < 4; omega) S1024x1024 x5 rfl rfl 1024 rfl (ix2 q k) ?_ ?_
  · intro b hb
    match b with
    | ⟨0, _⟩ => exact absurd rfl hb
    | ⟨1, _⟩ => exact h1.symm
  · show 1024 + q.val = (j 0).val
    omega

/-- The join of the four input weight matrices: a row in the third band of 1024 rows is that row of the third matrix. -/
theorem v0_piece2 (x3 x5 x7 x9 : (⟨S1024x1024, .f32⟩ : BufTy).Contents (Elt Ideal)) (j : S4096x1024.Idx) (q k : Fin 1024)
    (h0 : (j 0).val = 2048 + q.val) (h1 : (j 1).val = k.val) :
    val_main_v0 (F := Ideal) x3 x5 x7 x9 j = x7 (ix2 q k) := by
  unfold val_main_v0
  refine concatenate_apply_piece 0 _ _ j 2 (by show (2 : Nat) < 4; omega) S1024x1024 x7 rfl rfl 2048 rfl (ix2 q k) ?_ ?_
  · intro b hb
    match b with
    | ⟨0, _⟩ => exact absurd rfl hb
    | ⟨1, _⟩ => exact h1.symm
  · show 2048 + q.val = (j 0).val
    omega

/-- The join of the four input weight matrices: a row in the fourth band of 1024 rows is that row of the fourth matrix. -/
theorem v0_piece3 (x3 x5 x7 x9 : (⟨S1024x1024, .f32⟩ : BufTy).Contents (Elt Ideal)) (j : S4096x1024.Idx) (q k : Fin 1024)
    (h0 : (j 0).val = 3072 + q.val) (h1 : (j 1).val = k.val) :
    val_main_v0 (F := Ideal) x3 x5 x7 x9 j = x9 (ix2 q k) := by
  unfold val_main_v0
  refine concatenate_apply_piece 0 _ _ j 3 (by show (3 : Nat) < 4; omega) S1024x1024 x9 rfl rfl 3072 rfl (ix2 q k) ?_ ?_
  · intro b hb
    match b with
    | ⟨0, _⟩ => exact absurd rfl hb
    | ⟨1, _⟩ => exact h1.symm
  · show 3072 + q.val = (j 0).val
    omega

/-- The join of the four hidden weight matrices: a row in the first band of 1024 rows is that row of the first matrix. -/
theorem v1_piece0 (x11 x12 x13 x14 : (⟨S1024x1024, .f32⟩ : BufTy).Contents (Elt Ideal)) (j : S4096x1024.Idx) (q k : Fin 1024)
    (h0 : (j 0).val = 0 + q.val) (h1 : (j 1).val = k.val) :
    val_main_v1 (F := Ideal) x11 x12 x13 x14 j = x11 (ix2 q k) := by
  unfold val_main_v1
  refine concatenate_apply_piece 0 _ _ j 0 (by show (0 : Nat) < 4; omega) S1024x1024 x11 rfl rfl 0 rfl (ix2 q k) ?_ ?_
  · intro b hb
    match b with
    | ⟨0, _⟩ => exact absurd rfl hb
    | ⟨1, _⟩ => exact h1.symm
  · show 0 + q.val = (j 0).val
    omega

/-- The join of the four hidden weight matrices: a row in the second band of 1024 rows is that row of the second matrix. -/
theorem v1_piece1 (x11 x12 x13 x14 : (⟨S1024x1024, .f32⟩ : BufTy).Contents (Elt Ideal)) (j : S4096x1024.Idx) (q k : Fin 1024)
    (h0 : (j 0).val = 1024 + q.val) (h1 : (j 1).val = k.val) :
    val_main_v1 (F := Ideal) x11 x12 x13 x14 j = x12 (ix2 q k) := by
  unfold val_main_v1
  refine concatenate_apply_piece 0 _ _ j 1 (by show (1 : Nat) < 4; omega) S1024x1024 x12 rfl rfl 1024 rfl (ix2 q k) ?_ ?_
  · intro b hb
    match b with
    | ⟨0, _⟩ => exact absurd rfl hb
    | ⟨1, _⟩ => exact h1.symm
  · show 1024 + q.val = (j 0).val
    omega

/-- The join of the four hidden weight matrices: a row in the third band of 1024 rows is that row of the third matrix. -/
theorem v1_piece2 (x11 x12 x13 x14 : (⟨S1024x1024, .f32⟩ : BufTy).Contents (Elt Ideal)) (j : S4096x1024.Idx) (q k : Fin 1024)
    (h0 : (j 0).val = 2048 + q.val) (h1 : (j 1).val = k.val) :
    val_main_v1 (F := Ideal) x11 x12 x13 x14 j = x13 (ix2 q k) := by
  unfold val_main_v1
  refine concatenate_apply_piece 0 _ _ j 2 (by show (2 : Nat) < 4; omega) S1024x1024 x13 rfl rfl 2048 rfl (ix2 q k) ?_ ?_
  · intro b hb
    match b with
    | ⟨0, _⟩ => exact absurd rfl hb
    | ⟨1, _⟩ => exact h1.symm
  · show 2048 + q.val = (j 0).val
    omega

/-- The join of the four hidden weight matrices: a row in the fourth band of 1024 rows is that row of the fourth matrix. -/
theorem v1_piece3 (x11 x12 x13 x14 : (⟨S1024x1024, .f32⟩ : BufTy).Contents (Elt Ideal)) (j : S4096x1024.Idx) (q k : Fin 1024)
    (h0 : (j 0).val = 3072 + q.val) (h1 : (j 1).val = k.val) :
    val_main_v1 (F := Ideal) x11 x12 x13 x14 j = x14 (ix2 q k) := by
  unfold val_main_v1
  refine concatenate_apply_piece 0 _ _ j 3 (by show (3 : Nat) < 4; omega) S1024x1024 x14 rfl rfl 3072 rfl (ix2 q k) ?_ ?_
  · intro b hb
    match b with
    | ⟨0, _⟩ => exact absurd rfl hb
    | ⟨1, _⟩ => exact h1.symm
  · show 3072 + q.val = (j 0).val
    omega

/-- The join of the four biases: an entry in the first band of 1024 is that entry of the first bias. -/
theorem v2_piece0 (x4 x6 x8 x10 : (⟨S1024, .f32⟩ : BufTy).Contents (Elt Ideal)) (j : S4096.Idx) (q : Fin 1024)
    (h0 : (j 0).val = 0 + q.val) :
    val_main_v2 (F := Ideal) x4 x6 x8 x10 j = x4 (ix1 q) := by
  unfold val_main_v2
  refine concatenate_apply_piece 0 _ _ j 0 (by show (0 : Nat) < 4; omega) S1024 x4 rfl rfl 0 rfl (ix1 q) ?_ ?_
  · intro b hb
    match b with
    | ⟨0, _⟩ => exact absurd rfl hb
  · show 0 + q.val = (j 0).val
    omega

/-- The join of the four biases: an entry in the second band of 1024 is that entry of the second bias. -/
theorem v2_piece1 (x4 x6 x8 x10 : (⟨S1024, .f32⟩ : BufTy).Contents (Elt Ideal)) (j : S4096.Idx) (q : Fin 1024)
    (h0 : (j 0).val = 1024 + q.val) :
    val_main_v2 (F := Ideal) x4 x6 x8 x10 j = x6 (ix1 q) := by
  unfold val_main_v2
  refine concatenate_apply_piece 0 _ _ j 1 (by show (1 : Nat) < 4; omega) S1024 x6 rfl rfl 1024 rfl (ix1 q) ?_ ?_
  · intro b hb
    match b with
    | ⟨0, _⟩ => exact absurd rfl hb
  · show 1024 + q.val = (j 0).val
    omega

/-- The join of the four biases: an entry in the third band of 1024 is that entry of the third bias. -/
theorem v2_piece2 (x4 x6 x8 x10 : (⟨S1024, .f32⟩ : BufTy).Contents (Elt Ideal)) (j : S4096.Idx) (q : Fin 1024)
    (h0 : (j 0).val = 2048 + q.val) :
    val_main_v2 (F := Ideal) x4 x6 x8 x10 j = x8 (ix1 q) := by
  unfold val_main_v2
  refine concatenate_apply_piece 0 _ _ j 2 (by show (2 : Nat) < 4; omega) S1024 x8 rfl rfl 2048 rfl (ix1 q) ?_ ?_
  · intro b hb
    match b with
    | ⟨0, _⟩ => exact absurd rfl hb
  · show 2048 + q.val = (j 0).val
    omega

/-- The join of the four biases: an entry in the fourth band of 1024 is that entry of the fourth bias. -/
theorem v2_piece3 (x4 x6 x8 x10 : (⟨S1024, .f32⟩ : BufTy).Contents (Elt Ideal)) (j : S4096.Idx) (q : Fin 1024)
    (h0 : (j 0).val = 3072 + q.val) :
    val_main_v2 (F := Ideal) x4 x6 x8 x10 j = x10 (ix1 q) := by
  unfold val_main_v2
  refine concatenate_apply_piece 0 _ _ j 3 (by show (3 : Nat) < 4; omega) S1024 x10 rfl rfl 3072 rfl (ix1 q) ?_ ?_
  · intro b hb
    match b with
    | ⟨0, _⟩ => exact absurd rfl hb
  · show 3072 + q.val = (j 0).val
    omega

/-! ## The sigmoid as the reference spells it -/

/-- The constant the reference divides and adds with is the number one. -/
theorem one_bits : FloatOps.ofBits (F := Ideal) .f32 0x3F800000#32 = (1 : EReal) := by
  show Ideal.ofBits .f32 0x3F800000#32 = 1
  simp [Ideal.ofBits, Ideal.ieee, -EReal.coe_mul]; norm_num

/-- `1 / (1 + e^(-z))`, in the host's operations with the constant above, is the logistic function by definition. -/
theorem sigmoid_spelt (z : Ideal .f32) :
    FloatOps.hostDivf (F := Ideal) (φ := .f32) (FloatOps.ofBits .f32 0x3F800000#32)
      (FloatOps.addf (FloatOps.ofBits .f32 0x3F800000#32) (FloatOps.hostUnary .exp (FloatOps.hostNegf z)))
      = Ideal.logistic z := by
  rw [one_bits]; rfl

variable (x0 x1 x2 : (⟨S4096x1024, .f32⟩ : BufTy).Contents (Elt Ideal))
  (x3 x5 x7 x9 x11 x12 x13 x14 : (⟨S1024x1024, .f32⟩ : BufTy).Contents (Elt Ideal))
  (x4 x6 x8 x10 : (⟨S1024, .f32⟩ : BufTy).Contents (Elt Ideal))

/-! ## The four column bands are the four gates' pre-activations -/

/-- The first column band of the pre-activations, entry `(r, q)`: gate i's pre-activation of row `r` at hidden unit `q`. -/
theorem band_i (r : Fin 4096) (q : Fin 1024) :
    val_main_v11 (F := Ideal) x0 x1 x3 x4 x5 x6 x7 x8 x9 x10 x11 x12 x13 x14 (ix2 r q)
      = Cell.pre (Cell.matOf x3) (Cell.matOf x11) (Cell.vecOf x4) (Cell.rowOf x0 r) (Cell.rowOf x1 r) q := by
  rw [val_main_v11_apply, val_main_v10_apply, val_main_v7_apply, val_main_v4_apply, val_main_v6_apply,
    val_main_v9_apply, val_main_v8_apply, v2_piece0 x4 x6 x8 x10 _ q (by show q.val = 0 + q.val; omega)]
  unfold Cell.pre
  refine congrArg₂ (· + ·) (congrArg₂ (· + ·) ?_ ?_) rfl
  · refine Finset.sum_congr rfl fun k _ => ?_
    rw [val_main_v3_apply, v0_piece0 x3 x5 x7 x9 _ q k (by show q.val = 0 + q.val; omega) rfl]
    exact congrArg (fun i => x0 i * x3 (ix2 q k))
      (funext fun a => by match a with | ⟨0, _⟩ => rfl | ⟨1, _⟩ => rfl)
  · refine Finset.sum_congr rfl fun k _ => ?_
    rw [val_main_v5_apply, v1_piece0 x11 x12 x13 x14 _ q k (by show q.val = 0 + q.val; omega) rfl]
    exact congrArg (fun i => x1 i * x11 (ix2 q k))
      (funext fun a => by match a with | ⟨0, _⟩ => rfl | ⟨1, _⟩ => rfl)

/-- The second column band of the pre-activations, entry `(r, q)`: gate f's pre-activation of row `r` at hidden unit `q`. -/
theorem band_f (r : Fin 4096) (q : Fin 1024) :
    val_main_v12 (F := Ideal) x0 x1 x3 x4 x5 x6 x7 x8 x9 x10 x11 x12 x13 x14 (ix2 r q)
      = Cell.pre (Cell.matOf x5) (Cell.matOf x12) (Cell.vecOf x6) (Cell.rowOf x0 r) (Cell.rowOf x1 r) q := by
  rw [val_main_v12_apply, val_main_v10_apply, val_main_v7_apply, val_main_v4_apply, val_main_v6_apply,
    val_main_v9_apply, val_main_v8_apply, v2_piece1 x4 x6 x8 x10 _ q rfl]
  unfold Cell.pre
  refine congrArg₂ (· + ·) (congrArg₂ (· + ·) ?_ ?_) rfl
  · refine Finset.sum_congr rfl fun k _ => ?_
    rw [val_main_v3_apply, v0_piece1 x3 x5 x7 x9 _ q k rfl rfl]
    exact congrArg (fun i => x0 i * x5 (ix2 q k))
      (funext fun a => by match a with | ⟨0, _⟩ => rfl | ⟨1, _⟩ => rfl)
  · refine Finset.sum_congr rfl fun k _ => ?_
    rw [val_main_v5_apply, v1_piece1 x11 x12 x13 x14 _ q k rfl rfl]
    exact congrArg (fun i => x1 i * x12 (ix2 q k))
      (funext fun a => by match a with | ⟨0, _⟩ => rfl | ⟨1, _⟩ => rfl)

/-- The third column band of the pre-activations, entry `(r, q)`: gate g's pre-activation of row `r` at hidden unit `q`. -/
theorem band_g (r : Fin 4096) (q : Fin 1024) :
    val_main_v13 (F := Ideal) x0 x1 x3 x4 x5 x6 x7 x8 x9 x10 x11 x12 x13 x14 (ix2 r q)
      = Cell.pre (Cell.matOf x7) (Cell.matOf x13) (Cell.vecOf x8) (Cell.rowOf x0 r) (Cell.rowOf x1 r) q := by
  rw [val_main_v13_apply, val_main_v10_apply, val_main_v7_apply, val_main_v4_apply, val_main_v6_apply,
    val_main_v9_apply, val_main_v8_apply, v2_piece2 x4 x6 x8 x10 _ q rfl]
  unfold Cell.pre
  refine congrArg₂ (· + ·) (congrArg₂ (· + ·) ?_ ?_) rfl
  · refine Finset.sum_congr rfl fun k _ => ?_
    rw [val_main_v3_apply, v0_piece2 x3 x5 x7 x9 _ q k rfl rfl]
    exact congrArg (fun i => x0 i * x7 (ix2 q k))
      (funext fun a => by match a with | ⟨0, _⟩ => rfl | ⟨1, _⟩ => rfl)
  · refine Finset.sum_congr rfl fun k _ => ?_
    rw [val_main_v5_apply, v1_piece2 x11 x12 x13 x14 _ q k rfl rfl]
    exact congrArg (fun i => x1 i * x13 (ix2 q k))
      (funext fun a => by match a with | ⟨0, _⟩ => rfl | ⟨1, _⟩ => rfl)

/-- The fourth column band of the pre-activations, entry `(r, q)`: gate o's pre-activation of row `r` at hidden unit `q`. -/
theorem band_o (r : Fin 4096) (q : Fin 1024) :
    val_main_v14 (F := Ideal) x0 x1 x3 x4 x5 x6 x7 x8 x9 x10 x11 x12 x13 x14 (ix2 r q)
      = Cell.pre (Cell.matOf x9) (Cell.matOf x14) (Cell.vecOf x10) (Cell.rowOf x0 r) (Cell.rowOf x1 r) q := by
  rw [val_main_v14_apply, val_main_v10_apply, val_main_v7_apply, val_main_v4_apply, val_main_v6_apply,
    val_main_v9_apply, val_main_v8_apply, v2_piece3 x4 x6 x8 x10 _ q rfl]
  unfold Cell.pre
  refine congrArg₂ (· + ·) (congrArg₂ (· + ·) ?_ ?_) rfl
  · refine Finset.sum_congr rfl fun k _ => ?_
    rw [val_main_v3_apply, v0_piece3 x3 x5 x7 x9 _ q k rfl rfl]
    exact congrArg (fun i => x0 i * x9 (ix2 q k))
      (funext fun a => by match a with | ⟨0, _⟩ => rfl | ⟨1, _⟩ => rfl)
  · refine Finset.sum_congr rfl fun k _ => ?_
    rw [val_main_v5_apply, v1_piece3 x11 x12 x13 x14 _ q k rfl rfl]
    exact congrArg (fun i => x1 i * x14 (ix2 q k))
      (funext fun a => by match a with | ⟨0, _⟩ => rfl | ⟨1, _⟩ => rfl)

/-! ## The six results -/

theorem ref_i : val_main_v20 (F := Ideal) x0 x1 x3 x4 x5 x6 x7 x8 x9 x10 x11 x12 x13 x14
    = Cell.outI x0 x1 (Cell.weightsOf x3 x5 x7 x9 x11 x12 x13 x14 x4 x6 x8 x10) := by
  funext j
  obtain ⟨r, q, rfl⟩ : ∃ (r : Fin 4096) (q : Fin 1024), j = ix2 r q := ⟨j 0, j 1, eq_ix2 j⟩
  rw [val_main_v20_apply, val_main_v19_apply, val_main_cst_0_apply, val_main_v18_apply, val_main_v17_apply,
    val_main_cst_apply, val_main_v16_apply, val_main_v15_apply, band_i]
  exact sigmoid_spelt _

theorem ref_f : val_main_v26 (F := Ideal) x0 x1 x3 x4 x5 x6 x7 x8 x9 x10 x11 x12 x13 x14
    = Cell.outF x0 x1 (Cell.weightsOf x3 x5 x7 x9 x11 x12 x13 x14 x4 x6 x8 x10) := by
  funext j
  obtain ⟨r, q, rfl⟩ : ∃ (r : Fin 4096) (q : Fin 1024), j = ix2 r q := ⟨j 0, j 1, eq_ix2 j⟩
  rw [val_main_v26_apply, val_main_v25_apply, val_main_cst_2_apply, val_main_v24_apply, val_main_v23_apply,
    val_main_cst_1_apply, val_main_v22_apply, val_main_v21_apply, band_f]
  exact sigmoid_spelt _

theorem ref_g : val_main_v27 (F := Ideal) x0 x1 x3 x4 x5 x6 x7 x8 x9 x10 x11 x12 x13 x14
    = Cell.outG x0 x1 (Cell.weightsOf x3 x5 x7 x9 x11 x12 x13 x14 x4 x6 x8 x10) := by
  funext j
  obtain ⟨r, q, rfl⟩ : ∃ (r : Fin 4096) (q : Fin 1024), j = ix2 r q := ⟨j 0, j 1, eq_ix2 j⟩
  rw [val_main_v27_apply, band_g]
  rfl

theorem ref_o : val_main_v33 (F := Ideal) x0 x1 x3 x4 x5 x6 x7 x8 x9 x10 x11 x12 x13 x14
    = Cell.outO x0 x1 (Cell.weightsOf x3 x5 x7 x9 x11 x12 x13 x14 x4 x6 x8 x10) := by
  funext j
  obtain ⟨r, q, rfl⟩ : ∃ (r : Fin 4096) (q : Fin 1024), j = ix2 r q := ⟨j 0, j 1, eq_ix2 j⟩
  rw [val_main_v33_apply, val_main_v32_apply, val_main_cst_4_apply, val_main_v31_apply, val_main_v30_apply,
    val_main_cst_3_apply, val_main_v29_apply, val_main_v28_apply, band_o]
  exact sigmoid_spelt _

theorem ref_c : val_main_v36 (F := Ideal) x0 x1 x2 x3 x4 x5 x6 x7 x8 x9 x10 x11 x12 x13 x14
    = Cell.outC x0 x1 x2 (Cell.weightsOf x3 x5 x7 x9 x11 x12 x13 x14 x4 x6 x8 x10) := by
  funext j
  rw [val_main_v36_apply, val_main_v34_apply, val_main_v35_apply, ref_f, ref_i, ref_g]
  rfl

theorem ref_h : val_main_v38 (F := Ideal) x0 x1 x2 x3 x4 x5 x6 x7 x8 x9 x10 x11 x12 x13 x14
    = Cell.outH x0 x1 x2 (Cell.weightsOf x3 x5 x7 x9 x11 x12 x13 x14 x4 x6 x8 x10) := by
  funext j
  rw [val_main_v38_apply, val_main_v37_apply, ref_o, ref_c]
  rfl

end Cert.RefCell

end
-- ==== Proof.RefRun.lean ====
/-
  The reference's run, re-posted: each of its six results is the cell of Proof/CellSpec.lean on its own arguments.

  The run's own post states the two last results by name and the four gates as the operations' composed term; each is the
  stage of the same name, and the stages are the cell's functions (Proof/RefCell.lean). Also here: the cell's result
  arrays depend on the arguments only through their values, so arguments that agree give the same arrays.
-/
import proofs.«131261_j27659589386821_1_alg».proof.Proof.Gen.ReferenceIdeal.Run
import proofs.«131261_j27659589386821_1_alg».proof.Proof.Gen.ReferenceIdeal.Read
import proofs.«131261_j27659589386821_1_alg».proof.Proof.RefCell

noncomputable section

namespace Cert.Cell

theorem weightsOf_congr {w1 w2 w3 w4 w5 w6 w7 w8 v1 v2 v3 v4 v5 v6 v7 v8 : SMat.Idx → EReal}
    {b1 b2 b3 b4 d1 d2 d3 d4 : SVec.Idx → EReal}
    (e1 : w1 = v1) (e2 : w2 = v2) (e3 : w3 = v3) (e4 : w4 = v4) (e5 : w5 = v5) (e6 : w6 = v6) (e7 : w7 = v7) (e8 : w8 = v8)
    (f1 : b1 = d1) (f2 : b2 = d2) (f3 : b3 = d3) (f4 : b4 = d4) :
    weightsOf w1 w2 w3 w4 w5 w6 w7 w8 b1 b2 b3 b4 = weightsOf v1 v2 v3 v4 v5 v6 v7 v8 d1 d2 d3 d4 := by
  subst e1 e2 e3 e4 e5 e6 e7 e8 f1 f2 f3 f4; rfl

theorem out2_congr (out : (SBat.Idx → EReal) → (SBat.Idx → EReal) → Weights → SBat.Idx → EReal)
    {x x' h h' : SBat.Idx → EReal} {W W' : Weights} (ex : x = x') (eh : h = h') (eW : W = W') :
    out x h W = out x' h' W' := by
  subst ex eh eW; rfl

theorem out3_congr (out : (SBat.Idx → EReal) → (SBat.Idx → EReal) → (SBat.Idx → EReal) → Weights → SBat.Idx → EReal)
    {x x' h h' c c' : SBat.Idx → EReal} {W W' : Weights} (ex : x = x') (eh : h = h') (ec : c = c') (eW : W = W') :
    out x h c W = out x' h' c' W' := by
  subst ex eh ec eW; rfl

end Cert.Cell

namespace Cert.RefRun

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- The cell's weights from the reference program's arguments. -/
def refWeights (c : Dev nD) : Cell.Weights :=
  Cell.weightsOf (m ((c.tc : Thread nD τ).loc main_arg3)) (m ((c.tc : Thread nD τ).loc main_arg5)) (m ((c.tc : Thread nD τ).loc main_arg7)) (m ((c.tc : Thread nD τ).loc main_arg9))
    (m ((c.tc : Thread nD τ).loc main_arg11)) (m ((c.tc : Thread nD τ).loc main_arg12)) (m ((c.tc : Thread nD τ).loc main_arg13)) (m ((c.tc : Thread nD τ).loc main_arg14))
    (m ((c.tc : Thread nD τ).loc main_arg4)) (m ((c.tc : Thread nD τ).loc main_arg6)) (m ((c.tc : Thread nD τ).loc main_arg8)) (m ((c.tc : Thread nD τ).loc main_arg10))

theorem run : θ_run defs (onTc (τ := τ) (main (F := Ideal))) ⟨m, fun _ => 0, ρ⟩ fun r => ∀ c : Dev nD,
      r.2.mem ((c.tc : Thread nD τ).loc main_v38) = Cell.outH (m ((c.tc : Thread nD τ).loc main_arg0)) (m ((c.tc : Thread nD τ).loc main_arg1)) (m ((c.tc : Thread nD τ).loc main_arg2)) (refWeights m c)
      ∧ r.2.mem ((c.tc : Thread nD τ).loc main_v36) = Cell.outC (m ((c.tc : Thread nD τ).loc main_arg0)) (m ((c.tc : Thread nD τ).loc main_arg1)) (m ((c.tc : Thread nD τ).loc main_arg2)) (refWeights m c)
      ∧ r.2.mem ((c.tc : Thread nD τ).loc main_v20) = Cell.outI (m ((c.tc : Thread nD τ).loc main_arg0)) (m ((c.tc : Thread nD τ).loc main_arg1)) (refWeights m c)
      ∧ r.2.mem ((c.tc : Thread nD τ).loc main_v26) = Cell.outF (m ((c.tc : Thread nD τ).loc main_arg0)) (m ((c.tc : Thread nD τ).loc main_arg1)) (refWeights m c)
      ∧ r.2.mem ((c.tc : Thread nD τ).loc main_v27) = Cell.outG (m ((c.tc : Thread nD τ).loc main_arg0)) (m ((c.tc : Thread nD τ).loc main_arg1)) (refWeights m c)
      ∧ r.2.mem ((c.tc : Thread nD τ).loc main_v33) = Cell.outO (m ((c.tc : Thread nD τ).loc main_arg0)) (m ((c.tc : Thread nD τ).loc main_arg1)) (refWeights m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c =>
    ⟨(h c).1.trans ((Read.val_main_v38_eq m c).trans (Cert.RefCell.ref_h _ _ _ _ _ _ _ _ _ _ _ _ _ _ _)),
     (h c).2.1.trans ((Read.val_main_v36_eq m c).trans (Cert.RefCell.ref_c _ _ _ _ _ _ _ _ _ _ _ _ _ _ _)),
     (h c).2.2.1.trans ((Read.val_main_v20_eq (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))).trans (Cert.RefCell.ref_i _ _ _ _ _ _ _ _ _ _ _ _ _ _)),
     (h c).2.2.2.1.trans ((Read.val_main_v26_eq (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))).trans (Cert.RefCell.ref_f _ _ _ _ _ _ _ _ _ _ _ _ _ _)),
     (h c).2.2.2.2.1.trans ((Read.val_main_v27_eq (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))).trans (Cert.RefCell.ref_g _ _ _ _ _ _ _ _ _ _ _ _ _ _)),
     (h c).2.2.2.2.2.1.trans ((Read.val_main_v33_eq (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))).trans (Cert.RefCell.ref_o _ _ _ _ _ _ _ _ _ _ _ _ _ _)),
     (h c).2.2.2.2.2.2⟩)
    (Cert.ReferenceIdeal.Value.run (F := Ideal) m ρ)

end Cert.RefRun

end
-- ==== Proof.lean ====
/-
  A fused LSTM cell step: six results `h', c', i, f, g, o` of shape [4096, 1024] from `x`, `h`, `c`, eight weight
  matrices stored (out, in) and four biases.

  The kernel casts `x`, `h` and the weights to bf16 (the identity on the extended reals), reshapes each bias to a row, and
  runs sixteen grid points; point `t` takes rows `256 t … 256 t + 255` of `x`, `h`, `c` and the whole weights, forms each
  gate's pre-activation `(x_r · W[q,:] + h_r · U[q,:]) + b[q]` by two products into zero accumulators, their sum, and the
  bias row broadcast down the block, applies the sigmoid or tanh, forms `c' = f · c + i · g` and `h' = o · tanh c'`, and
  stores six whole blocks. The reference joins the four input-weight matrices along the out axis, transposes, multiplies
  the whole batch, does the same with the hidden weights, adds the two products, adds the joined bias to every row, cuts the
  four column bands, and spells the sigmoid `1 / (1 + e^(-z))`. On the extended reals both are the cell of
  Proof/CellSpec.lean row by row: the sums are the same sums in the same grouping (column `1024 g + q` of the joined product
  is piece `g` at row `q`), and the spelt sigmoid IS the sigmoid. Nothing here needs the inputs finite.

  Proof/BlockCell.lean reads the kernel body's stored values at an entry of a block; Proof/PointBlocks.lean and
  Proof/PointWeights.lean say what a grid point's blocks are in terms of the arguments; Proof/OutHidden.lean, OutCell.lean,
  OutGateI.lean, OutGateF.lean, OutGateG.lean and OutGateO.lean pass from the sixteen blocks of each result to the whole
  array; Proof/RefCell.lean reads the reference's six results and Proof/RefRun.lean re-posts its run with them. The kernel's idealization rewrote nothing, so `preserves`
  asks nothing.
-/
import proofs.«131261_j27659589386821_1_alg».proof.Defs
import proofs.«131261_j27659589386821_1_alg».proof.Proof.Gen.Kernel
import proofs.«131261_j27659589386821_1_alg».proof.Proof.Gen.Kernel.Skeleton
import proofs.«131261_j27659589386821_1_alg».proof.Proof.Gen.Kernel.Launch
import proofs.«131261_j27659589386821_1_alg».proof.Proof.Gen.Kernel.Points
import proofs.«131261_j27659589386821_1_alg».proof.Proof.Gen.Kernel.Frame
import proofs.«131261_j27659589386821_1_alg».proof.Proof.Gen.KernelIdeal
import proofs.«131261_j27659589386821_1_alg».proof.Proof.Gen.KernelIdeal.Skeleton
import proofs.«131261_j27659589386821_1_alg».proof.Proof.Gen.KernelIdeal.Launch
import proofs.«131261_j27659589386821_1_alg».proof.Proof.Gen.KernelIdeal.Points
import proofs.«131261_j27659589386821_1_alg».proof.Proof.Gen.KernelIdeal.Frame
import proofs.«131261_j27659589386821_1_alg».proof.Proof.Gen.ReferenceIdeal
import proofs.«131261_j27659589386821_1_alg».proof.Proof.Gen.Pre_finite_inputs
import proofs.«131261_j27659589386821_1_alg».proof.Proof.Gen.KernelIdeal.Value
import proofs.«131261_j27659589386821_1_alg».proof.Proof.Gen.ReferenceIdeal.Run
import proofs.«131261_j27659589386821_1_alg».proof.Proof.Gen.ReferenceIdeal.Read
import proofs.«131261_j27659589386821_1_alg».proof.Proof.OutHidden
import proofs.«131261_j27659589386821_1_alg».proof.Proof.OutCell
import proofs.«131261_j27659589386821_1_alg».proof.Proof.OutGateI
import proofs.«131261_j27659589386821_1_alg».proof.Proof.OutGateF
import proofs.«131261_j27659589386821_1_alg».proof.Proof.OutGateG
import proofs.«131261_j27659589386821_1_alg».proof.Proof.OutGateO
import proofs.«131261_j27659589386821_1_alg».proof.Proof.RefCell
import proofs.«131261_j27659589386821_1_alg».proof.Proof.RefRun
import Idealize.ShloMosaic.Adequacy
import Idealize.ShloMosaic.Init

noncomputable section

namespace Cert.Proof

open Idealize.ShloMosaic Idealize.SL.Sem Idealize.ShloMosaic.TcCoe

theorem frame_kernel : Cert.frame_Kernel := fun m ρ _ => Cert.Kernel.Gen.frame m ρ

theorem frame_kernelIdeal : Cert.frame_KernelIdeal := fun m ρ _ => Cert.KernelIdeal.Gen.frame m ρ

/-- The reference's run with its six results dropped. -/
theorem frame_referenceIdeal : Cert.frame_ReferenceIdeal := fun m ρ _ =>
  (θ_run Cert.ReferenceIdeal.defs _ _).mono (fun _ h c => (h c).2.2.2.2.2.2) (Cert.ReferenceIdeal.Value.run (F := Ideal) m ρ)

/-- Both programs end with each result at the cell's function of the kernel program's arguments: the kernel's six arrays
    block by block (`finalH` … `finalO`), the reference's six results by its re-posted run (`RefRun.run`), the arguments'
    agreement carried into the cell's functions. -/
theorem algebraic : Cert.algebraic_KernelIdeal_ReferenceIdeal := by
  intro m ρ m' ρ' _ hagree
  refine ⟨
    fun c => Cell.outH (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (Cert.PointBlocks.argWeights m c),
    fun c => Cell.outC (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (Cert.PointBlocks.argWeights m c),
    fun c => Cell.outI (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (Cert.PointBlocks.argWeights m c),
    fun c => Cell.outF (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (Cert.PointBlocks.argWeights m c),
    fun c => Cell.outG (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (Cert.PointBlocks.argWeights m c),
    fun c => Cell.outO (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (Cert.PointBlocks.argWeights m c), ?_, ?_⟩
  · exact (θ_run Cert.KernelIdeal.defs _ _).mono (fun r h c =>
      ⟨(h c).1.trans (Cert.Outputs.finalH m c),
       (h c).2.1.trans (Cert.Outputs.finalC m c),
       (h c).2.2.1.trans (Cert.Outputs.finalI m c),
       (h c).2.2.2.1.trans (Cert.Outputs.finalF m c),
       (h c).2.2.2.2.1.trans (Cert.Outputs.finalG m c),
       (h c).2.2.2.2.2.1.trans (Cert.Outputs.finalO m c),
       (h c).2.2.2.2.2.2⟩) (Cert.KernelIdeal.Value.run_blocks m ρ)
  · refine (θ_run Cert.ReferenceIdeal.defs _ _).mono (fun r h c => ?_) (Cert.RefRun.run m' ρ')
    obtain ⟨a0, a1, a2, a3, a4, a5, a6, a7, a8, a9, a10, a11, a12, a13, a14⟩ := hagree c
    have eW : Cert.RefRun.refWeights m' c = Cert.PointBlocks.argWeights m c :=
      Cell.weightsOf_congr a3 a5 a7 a9 a11 a12 a13 a14 a4 a6 a8 a10
    obtain ⟨r0, r1, r2, r3, r4, r5, rest⟩ := h c
    exact ⟨r0.trans (Cell.out3_congr Cell.outH a0 a1 a2 eW), r1.trans (Cell.out3_congr Cell.outC a0 a1 a2 eW),
      r2.trans (Cell.out2_congr Cell.outI a0 a1 eW), r3.trans (Cell.out2_congr Cell.outF a0 a1 eW),
      r4.trans (Cell.out2_congr Cell.outG a0 a1 eW), r5.trans (Cell.out2_congr Cell.outO a0 a1 eW), rest⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
